-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S512 : Shape := ⟨1, ![512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S64x512x512 .f32) (main_arg1 : FVec F S512 .f32) (main_arg2 : FVec F S512 .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S64x512x512 : Shape := ⟨3, ![64, 512, 512]⟩
abbrev S512 : Shape := ⟨1, ![512]⟩
abbrev S32768x512 : Shape := ⟨2, ![32768, 512]⟩
abbrev S1x512 : Shape := ⟨2, ![1, 512]⟩
abbrev S2x8x512 : Shape := ⟨3, ![2, 8, 512]⟩
abbrev S8192x512 : Shape := ⟨2, ![8192, 512]⟩
abbrev S1x8x512 : Shape := ⟨3, ![1, 8, 512]⟩
abbrev S8x512 : Shape := ⟨2, ![8, 512]⟩
abbrev S1024x8x512 : Shape := ⟨3, ![1024, 8, 512]⟩
abbrev S16x512 : Shape := ⟨2, ![16, 512]⟩
abbrev S2048x512 : Shape := ⟨2, ![2048, 512]⟩

abbrev nBuf : Space → Nat
  | .hbm => 12
  | .vmem => 14
  | .smem => 0
  | _ => 0

abbrev bufTy : (tb : Table) → Fin (tcTables nBuf tb) → BufTy
  | .hbm, ⟨0, _⟩ => ⟨S64x512x512, .f32⟩
  | .hbm, ⟨1, _⟩ => ⟨S512, .f32⟩
  | .hbm, ⟨2, _⟩ => ⟨S512, .f32⟩
  | .hbm, ⟨3, _⟩ => ⟨S32768x512, .f32⟩
  | .hbm, ⟨4, _⟩ => ⟨S1x512, .f32⟩
  | .hbm, ⟨5, _⟩ => ⟨S1x512, .f32⟩
  | .hbm, ⟨6, _⟩ => ⟨S2x8x512, .f32⟩
  | .hbm, ⟨7, _⟩ => ⟨S2x8x512, .f32⟩
  | .hbm, ⟨8, _⟩ => ⟨S16x512, .f32⟩
  | .hbm, ⟨9, _⟩ => ⟨S16x512, .f32⟩
  | .hbm, ⟨10, _⟩ => ⟨S32768x512, .f32⟩
  | .hbm, ⟨11, _⟩ => ⟨S64x512x512, .f32⟩
  | .local _ .vmem, ⟨0, _⟩ => ⟨S8192x512, .f32⟩
  | .local _ .vmem, ⟨1, _⟩ => ⟨S8192x512, .f32⟩
  | .local _ .vmem, ⟨2, _⟩ => ⟨S1x8x512, .f32⟩
  | .local _ .vmem, ⟨3, _⟩ => ⟨S1x8x512, .f32⟩
  | .local _ .vmem, ⟨4, _⟩ => ⟨S1x8x512, .f32⟩
  | .local _ .vmem, ⟨5, _⟩ => ⟨S1x8x512, .f32⟩
  | .local _ .vmem, ⟨6, _⟩ => ⟨S2048x512, .f32⟩
  | .local _ .vmem, ⟨7, _⟩ => ⟨S2048x512, .f32⟩
  | .local _ .vmem, ⟨8, _⟩ => ⟨S16x512, .f32⟩
  | .local _ .vmem, ⟨9, _⟩ => ⟨S16x512, .f32⟩
  | .local _ .vmem, ⟨10, _⟩ => ⟨S1x512, .f32⟩
  | .local _ .vmem, ⟨11, _⟩ => ⟨S1x512, .f32⟩
  | .local _ .vmem, ⟨12, _⟩ => ⟨S2048x512, .f32⟩
  | .local _ .vmem, ⟨13, _⟩ => ⟨S2048x512, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S64x512x512_S32768x512 : S64x512x512.ShapeCasts S32768x512
  shapeCasts_S512_S1x512 : S512.ShapeCasts S1x512
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  shapeCasts_S8x512_S1x8x512 : S8x512.ShapeCasts S1x8x512
  inb_S8192x512_S8192x512_0_0 : ∀ a, (![0, 0] : Fin 2 → Nat) a + S8192x512.size a ≤ S8192x512.size a
  h_S8192x512 : 0 < S8192x512.numel
  shapeCasts_S8192x512_S8192x512 : S8192x512.ShapeCasts S8192x512
  shapeCasts_S8192x512_S1024x8x512 : S8192x512.ShapeCasts S1024x8x512
  reduces_S1024x8x512_S8x512 : S1024x8x512.Reduces [0] S8x512
  shapeCasts_S2x8x512_S16x512 : S2x8x512.ShapeCasts S16x512
  inb_S16x512_S16x512_0_0 : ∀ a, (![0, 0] : Fin 2 → Nat) a + S16x512.size a ≤ S16x512.size a
  h_S16x512 : 0 < S16x512.numel
  shapeCasts_S16x512_S16x512 : S16x512.ShapeCasts S16x512
  reduces_S16x512_S512 : S16x512.Reduces [0] S512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  broadcasts_S1x512_S2048x512 : S1x512.Broadcasts S2048x512
  shapeCasts_S32768x512_S64x512x512 : S32768x512.ShapeCasts S64x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x512.size a ≤ S32768x512.size a
  hwx0_0 : ∀ i : grid0.Coords, EltTy.bits .f32 = 32 ∨ (Rect.block (s := S32768x512) S8192x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x512.size a ≤ S2x8x512.size a
  hwx0_1 : ∀ i : grid0.Coords, EltTy.bits .f32 = 32 ∨ (Rect.block (s := S2x8x512) S1x8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x512.size a ≤ S2x8x512.size a
  hwx0_2 : ∀ i : grid0.Coords, EltTy.bits .f32 = 32 ∨ (Rect.block (s := S2x8x512) S1x8x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S32768x512.size a
  hwx1_0 : ∀ i : grid1.Coords, EltTy.bits .f32 = 32 ∨ (Rect.block (s := S32768x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x512.size a ≤ S16x512.size a
  hwx1_1 : ∀ i : grid1.Coords, EltTy.bits .f32 = 32 ∨ (Rect.block (s := S16x512) S16x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x512.size a ≤ S16x512.size a
  hwx1_2 : ∀ i : grid1.Coords, EltTy.bits .f32 = 32 ∨ (Rect.block (s := S16x512) S16x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x512.size a ≤ S32768x512.size a
  hwx1_5 : ∀ i : grid1.Coords, EltTy.bits .f32 = 32 ∨ (Rect.block (s := S32768x512) S2048x512.size (cc1_transform_5 i) (hinb1_5 i)).WholeWords (EltTy.packing .f32)

variable [Facts₀]

abbrev win0_0 : Pipeline.Window sig grid0 :=
  Pipeline.Window.ofSpec (Memref.whole main_v0) S8192x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3_0) S1x8x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_1) S1x8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S16x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S16x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S2048x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x512x512 : Shape := ⟨3, ![64, 512, 512]⟩
abbrev S512 : Shape := ⟨1, ![512]⟩
abbrev S32768x512 : Shape := ⟨2, ![32768, 512]⟩
abbrev S1x512 : Shape := ⟨2, ![1, 512]⟩
abbrev S2x8x512 : Shape := ⟨3, ![2, 8, 512]⟩
abbrev S1024x512 : Shape := ⟨2, ![1024, 512]⟩
abbrev S1x8x512 : Shape := ⟨3, ![1, 8, 512]⟩
abbrev S8x512 : Shape := ⟨2, ![8, 512]⟩
abbrev S128x8x512 : Shape := ⟨3, ![128, 8, 512]⟩
abbrev S_ : Shape := ⟨0, ![]⟩

abbrev nBuf : Space → Nat
  | .hbm => 36
  | .vmem => 12
  | .smem => 0
  | _ => 0

abbrev bufTy : (tb : Table) → Fin (tcTables nBuf tb) → BufTy
  | .hbm, ⟨0, _⟩ => ⟨S64x512x512, .f32⟩
  | .hbm, ⟨1, _⟩ => ⟨S512, .f32⟩
  | .hbm, ⟨2, _⟩ => ⟨S512, .f32⟩
  | .hbm, ⟨3, _⟩ => ⟨S32768x512, .f32⟩
  | .hbm, ⟨4, _⟩ => ⟨S1x512, .f32⟩
  | .hbm, ⟨5, _⟩ => ⟨S1x512, .f32⟩
  | .hbm, ⟨6, _⟩ => ⟨S2x8x512, .f32⟩
  | .hbm, ⟨7, _⟩ => ⟨S2x8x512, .f32⟩
  | .hbm, ⟨8, _⟩ => ⟨S_, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S512, .f32⟩
  | .hbm, ⟨30, _⟩ => ⟨S512, .f32⟩
  | .hbm, ⟨31, _⟩ => ⟨S512, .f32⟩
  | .hbm, ⟨32, _⟩ => ⟨S1x512, .f32⟩
  | .hbm, ⟨33, _⟩ => ⟨S1x512, .f32⟩
  | .hbm, ⟨34, _⟩ => ⟨S32768x512, .f32⟩
  | .hbm, ⟨35, _⟩ => ⟨S64x512x512, .f32⟩
  | .local _ .vmem, ⟨0, _⟩ => ⟨S1024x512, .f32⟩
  | .local _ .vmem, ⟨1, _⟩ => ⟨S1024x512, .f32⟩
  | .local _ .vmem, ⟨2, _⟩ => ⟨S1x8x512, .f32⟩
  | .local _ .vmem, ⟨3, _⟩ => ⟨S1x8x512, .f32⟩
  | .local _ .vmem, ⟨4, _⟩ => ⟨S1x8x512, .f32⟩
  | .local _ .vmem, ⟨5, _⟩ => ⟨S1x8x512, .f32⟩
  | .local _ .vmem, ⟨6, _⟩ => ⟨S1024x512, .f32⟩
  | .local _ .vmem, ⟨7, _⟩ => ⟨S1024x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S64x512x512_S32768x512 : S64x512x512.ShapeCasts S32768x512
  shapeCasts_S512_S1x512 : S512.ShapeCasts S1x512
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  shapeCasts_S8x512_S1x8x512 : S8x512.ShapeCasts S1x8x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S1024x512_S128x8x512 : S1024x512.ShapeCasts S128x8x512
  reduces_S128x8x512_S8x512 : S128x8x512.Reduces [0] S8x512
  reducesTo_S2x8x512_S512_d0_1 : S2x8x512.ReducesTo [0, 1] S512
  h_S_ : 0 < S_.numel
  bcast_S_S512 : S_.BroadcastsInDim S512 (![] : Fin 0 → Fin S512.rank)
  shapeCasts_S1x512_S512 : S1x512.ShapeCasts S512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S32768x512_S64x512x512 : S32768x512.ShapeCasts S64x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x512.size a ≤ S2x8x512.size a
  hwx0_1 : ∀ i : grid0.Coords, EltTy.bits .f32 = 32 ∨ (Rect.block (s := S2x8x512) S1x8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x512.size a ≤ S2x8x512.size a
  hwx0_2 : ∀ i : grid0.Coords, EltTy.bits .f32 = 32 ∨ (Rect.block (s := S2x8x512) S1x8x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S32768x512.size a
  hwx1_0 : ∀ i : grid1.Coords, EltTy.bits .f32 = 32 ∨ (Rect.block (s := S32768x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S32768x512.size a
  hwx1_3 : ∀ i : grid1.Coords, EltTy.bits .f32 = 32 ∨ (Rect.block (s := S32768x512) S1024x512.size (cc1_transform_3 i) (hinb1_3 i)).WholeWords (EltTy.packing .f32)

variable [Facts₀]

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3_0) S1x8x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_1) S1x8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.Spec.lean ====
/-
  Training-mode batch normalisation over the rows of a [32768, 512] matrix, channel by channel, on the extended reals.

  For a channel `h` write `s₁ = ∑ᵣ x[r,h]` and `s₂ = ∑ᵣ x[r,h]²` over the 32768 rows. With `c = 2⁻¹⁵` (the reciprocal of
  the row count, an exact dyadic), `mean = s₁·c`, `var = max (s₂·c − mean²) 0`, `scale = γ·(var + ε)^(-1/2)`,
  `shift = β − mean·scale`, and the result at a row is `x·scale + shift`. Both programs compute exactly these
  operations in this order once the two row sums are known; they differ only in how the rows are grouped when the
  sums are taken: each forms, for `j < 2` and a sublane `s < 8`, a partial sum over `K` consecutive tiles of `A·8` rows
  (rows `(j·K + k)·(A·8) + a·8 + s`), and then adds the sixteen partial sums. Addition of extended reals is commutative
  and associative, so the sixteen partial sums add up to the sum over all rows whatever `K` and `A` are, as long as
  `2·K·A·8` is the row count (`sum_blockSum`).
-/
import Idealize.ShloMosaic.PureOps.Ideal
import Idealize.ShloMosaic.Lib.ValueIdx
import Mathlib.Algebra.BigOperators.Fin
import Mathlib.Logic.Equiv.Fin.Basic

noncomputable section

open scoped BigOperators

namespace Cert.BatchNorm

open Idealize.ShloMosaic Idealize.ShloMosaic.ValueIdx

/-! ## Sums over rows, grouped into tiles -/

/-- A sum over `m·n` consecutive naturals is the double sum over `m` groups of `n`. -/
theorem sum_fin_mul {M : Type*} [AddCommMonoid M] (m n : ℕ) (g : ℕ → M) :
    ∑ r : Fin (m * n), g r.val = ∑ a : Fin m, ∑ b : Fin n, g (b.val + n * a.val) := by
  rw [← Equiv.sum_comp (finProdFinEquiv (m := m) (n := n)) (fun r => g r.val), Fintype.sum_prod_type]
  rfl

/-- The partial sum of group `j`, sublane `s`: over `K` tiles of `A·8` rows each, the rows of the tile that sit on
    sublane `s` (every eighth row). -/
def blockSum (K A : ℕ) (g : ℕ → EReal) (j s : ℕ) : EReal :=
  ∑ k : Fin K, ∑ a : Fin A, g ((j * K + k.val) * (A * 8) + (a.val * 8 + s))

/-- The partial sums of all groups and sublanes add up to the sum over every row. -/
theorem sum_blockSum (J K A N : ℕ) (hN : J * K * A * 8 = N) (g : ℕ → EReal) :
    ∑ j : Fin J, ∑ s : Fin 8, blockSum K A g j.val s.val = ∑ r : Fin N, g r.val := by
  subst hN
  rw [sum_fin_mul (J * K * A) 8 g]
  rw [sum_fin_mul (J * K) A (fun u => ∑ b : Fin 8, g (b.val + 8 * u))]
  rw [sum_fin_mul J K (fun v => ∑ a : Fin A, ∑ b : Fin 8, g (b.val + 8 * (a.val + A * v)))]
  refine Finset.sum_congr rfl fun j _ => ?_
  unfold blockSum
  rw [Finset.sum_comm]
  refine Finset.sum_congr rfl fun k _ => ?_
  rw [Finset.sum_comm]
  refine Finset.sum_congr rfl fun a _ => ?_
  refine Finset.sum_congr rfl fun s _ => ?_
  congr 1
  ring

/-- A running sum over the first `n + 1` tiles, started from zero and extended one tile at a time, as the programs
    accumulate it across grid points. -/
theorem zero_add_range_succ (b : ℕ → EReal) (n : ℕ) :
    (∑ k ∈ Finset.range (n + 1), b k) + b (n + 1) = ∑ k ∈ Finset.range (n + 1 + 1), b k :=
  (Finset.sum_range_succ b (n + 1)).symm

/-! ## One channel -/

/-- The reciprocal of the row count, `2⁻¹⁵`, as both programs spell it. -/
abbrev invN : EReal := Ideal.ofBits .f32 0x38000000#32
/-- The floor of the variance. -/
abbrev zeroF : EReal := Ideal.ofBits .f32 0x00000000#32
/-- The stabiliser `ε`, the f32 nearest `10⁻⁵`, the same word in both programs. -/
abbrev eps : EReal := Ideal.ofBits .f32 0x3727C5AC#32

/-- The channel's mean from its row sum. -/
def mean (s1 : EReal) : EReal := s1 * invN
/-- The channel's multiplier `γ·(var + ε)^(-1/2)`, the variance clamped at zero from below. -/
def scale (s1 s2 g : EReal) : EReal :=
  g * Ideal.rsqrt (max (s2 * invN - mean s1 * mean s1) zeroF + eps)
/-- The channel's offset `β − mean·scale`. -/
def shift (s1 s2 g b : EReal) : EReal := b - mean s1 * scale s1 s2 g
/-- The normalised value of one entry `xv` of the channel. -/
def outAt (xv s1 s2 g b : EReal) : EReal := xv * scale s1 s2 g + shift s1 s2 g b

/-! ## The whole array -/

/-- Column `h` of the matrix as a function of the row number (zero past the last row, which no sum reaches). -/
def colOf (x2 : (⟨2, ![32768, 512]⟩ : Shape).Idx → EReal) (h : Fin 512) : ℕ → EReal :=
  fun r => if hr : r < 32768 then x2 (ix2 ⟨r, hr⟩ h) else 0

/-- The entrywise square. -/
def sq (x2 : (⟨2, ![32768, 512]⟩ : Shape).Idx → EReal) : (⟨2, ![32768, 512]⟩ : Shape).Idx → EReal := fun i => x2 i * x2 i

/-- The channel's row sum. -/
def rowSum (x2 : (⟨2, ![32768, 512]⟩ : Shape).Idx → EReal) (h : Fin 512) : EReal := ∑ r : Fin 32768, colOf x2 h r.val

/-- The normalised matrix. -/
def norm2 (x2 : (⟨2, ![32768, 512]⟩ : Shape).Idx → EReal) (g b : Fin 512 → EReal) (r : Fin 32768) (h : Fin 512) : EReal :=
  outAt (x2 (ix2 r h)) (rowSum x2 h) (rowSum (sq x2) h) (g h) (b h)

end Cert.BatchNorm

end
-- ==== Proof.KernelStats.lean ====
/-
  The statistics pass over a [32768, 512] matrix `x`, on its grid of 2 groups × 2 steps.

  Point `t = 2·j + k` (group `j < 2`, step `k < 2`) sees rows `t·8192 … t·8192 + 8191` of `x` (tile `t`), regroups them as
  1024 slabs of 8 rows, and adds, for every sublane `s < 8` and channel `h < 512`, the sum over the slabs `a < 1024` of
  `x[t·8192 + a·8 + s, h]` (and, separately, of its square) into entry `(0, s, h)` of two [1, 8, 512] accumulators. The
  accumulators are set to zero at step 0 of a group and written to block `j` of two [2, 8, 512] arrays after step 1.
  Zero being neutral for the addition of extended reals, an accumulator holds tile `2·j`'s sums after step 0 and those plus
  tile `2·j + 1`'s after step 1, which is `blockSum 2 1024` of the column (of the squared matrix's column) at group `j`,
  sublane `s`: `∑ k < 2, ∑ a < 1024, x[(j·2 + k)·8192 + a·8 + s, h]`. Every entry `(j, s, h)` of a result array lies in the
  block written after point `2·j + 1`, so the two arrays end holding these partial sums (`final_sum`, `final_sq`).
-/
import proofs.«138052_g2000204283482131_pallaspilot1_46_6_alg».proof.Proof.Gen.KernelIdeal.Frame
import proofs.«138052_g2000204283482131_pallaspilot1_46_6_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open Cert.BatchNorm

namespace Cert.KernelIdeal.StatsValue

open Cert.KernelIdeal Cert.KernelIdeal.Gen

/-! ## What one run of the body leaves in the two accumulators -/

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later step of a group adds the tile's partial sums to what the first accumulator held. -/
theorem out_B_1 (c : Dev nD) (i : grid0.Coords) (a2 : Memref sig .tc .vmem S8192x512 .f32) (h2 : a2.IsWhole)
    (a3 : Memref sig .tc .vmem S1x8x512 .f32) (h3 : a3.IsWhole) (a4 : Memref sig .tc .vmem S1x8x512 .f32) (h4 : a4.IsWhole)
    (hc : ¬cond0_0 i) (x0 : Vec F S8192x512 .f32) (xo1 xo2 : Vec F S1x8x512 .f32) :
    out0_B_1 c i a2 h2 a3 h3 a4 h4 hc x0 xo1 xo2 = k0_pay4 x0 xo1 := by
  unfold out0_B_1
  rw [View.read_writes_eq_canon _ _ _ (cover0_B_1 c i a2 h2 a3 h3 a4 h4 hc x0 xo1 xo2)]
  unfold kernelRun0_B
  dsimp only
  sl_unfold_words
  rw [View.canon_unit_zero hz3]
  simp only [View.readAt_eq_ld, h2.read_unread, h3.read_unread, View.ld_unit_zero (S := S8192x512) hz2,
    View.ld_unit_zero (S := S1x8x512) hz3]

/-- … and the tile's partial sums of squares to what the second held. -/
theorem out_B_2 (c : Dev nD) (i : grid0.Coords) (a2 : Memref sig .tc .vmem S8192x512 .f32) (h2 : a2.IsWhole)
    (a3 : Memref sig .tc .vmem S1x8x512 .f32) (h3 : a3.IsWhole) (a4 : Memref sig .tc .vmem S1x8x512 .f32) (h4 : a4.IsWhole)
    (hc : ¬cond0_0 i) (x0 : Vec F S8192x512 .f32) (xo1 xo2 : Vec F S1x8x512 .f32) :
    out0_B_2 c i a2 h2 a3 h3 a4 h4 hc x0 xo1 xo2 = k0_pay5 x0 xo2 := by
  unfold out0_B_2
  rw [View.read_writes_eq_canon _ _ _ (cover0_B_2 c i a2 h2 a3 h3 a4 h4 hc x0 xo1 xo2)]
  unfold kernelRun0_B
  dsimp only
  sl_unfold_words
  rw [View.canon_unit_zero hz3]
  simp only [View.readAt_eq_ld, h2.read_unread, h4.read_unread, View.ld_unit_zero (S := S8192x512) hz2,
    View.ld_unit_zero (S := S1x8x512) hz3]

/-- The first step of a group stores the zero block, reads it back, and adds the tile's partial sums to it. -/
theorem out_A_1 (c : Dev nD) (i : grid0.Coords) (a2 : Memref sig .tc .vmem S8192x512 .f32) (h2 : a2.IsWhole)
    (a3 : Memref sig .tc .vmem S1x8x512 .f32) (h3 : a3.IsWhole) (a4 : Memref sig .tc .vmem S1x8x512 .f32) (h4 : a4.IsWhole)
    (hc : cond0_0 i) (x0 : Vec F S8192x512 .f32) :
    out0_A_1 c i a2 h2 a3 h3 a4 h4 hc x0 = k0_pay4 x0 k0_pay1 := by
  unfold out0_A_1
  rw [View.read_writes_eq_canon _ _ _ (cover0_A_1 c i a2 h2 a3 h3 a4 h4 hc x0)]
  unfold kernelRun0_A
  dsimp only
  sl_unfold_words
  rw [View.canon_cons_unit_zero (S := S1x8x512) hz3, View.readCov_unit_zero (S := S1x8x512) _ hz3]
  simp only [View.readAt_eq_ld, h2.read_unread, View.ld_unit_zero (S := S8192x512) hz2]

/-- … and likewise for the squares. -/
theorem out_A_2 (c : Dev nD) (i : grid0.Coords) (a2 : Memref sig .tc .vmem S8192x512 .f32) (h2 : a2.IsWhole)
    (a3 : Memref sig .tc .vmem S1x8x512 .f32) (h3 : a3.IsWhole) (a4 : Memref sig .tc .vmem S1x8x512 .f32) (h4 : a4.IsWhole)
    (hc : cond0_0 i) (x0 : Vec F S8192x512 .f32) :
    out0_A_2 c i a2 h2 a3 h3 a4 h4 hc x0 = k0_pay5 x0 k0_pay2 := by
  unfold out0_A_2
  rw [View.read_writes_eq_canon _ _ _ (cover0_A_2 c i a2 h2 a3 h3 a4 h4 hc x0)]
  unfold kernelRun0_A
  dsimp only
  sl_unfold_words
  rw [View.canon_cons_unit_zero (S := S1x8x512) hz3, View.readCov_unit_zero (S := S1x8x512) _ hz3]
  simp only [View.readAt_eq_ld, h2.read_unread, View.ld_unit_zero (S := S8192x512) hz2]

end Pieces

/-! ## The payloads at an entry, on the extended reals -/

/-- Row `a·8 + s` of a tile of 1024·8 rows: the row of sublane `s` in its `a`-th group of eight. -/
abbrev rowOf (a : Fin 1024) (s : Fin 8) : Fin 8192 := ⟨a.val * 8 + s.val, by omega⟩

/-- The tile regrouped as 1024 slabs of 8 rows: slab `a`, sublane `s` is row `a·8 + s`. -/
theorem pay3_apply (x0 : FVec Ideal S8192x512 .f32) (a : Fin 1024) (s : Fin 8) (h : Fin 512) :
    k0_pay3 (F := Ideal) x0 (ix3 a s h) = x0 (ix2 (rowOf a s) h) := by
  unfold k0_pay3
  show shapeCast S1024x8x512 (shapeCast S8192x512 x0 shapeCasts_S8192x512_S8192x512) shapeCasts_S8192x512_S1024x8x512 (ix3 a s h) = _
  rw [shapeCast_self]
  refine shapeCast_apply _ _ _ _ ?_
  rw [Shape.rowMajor_val_two, Shape.rowMajor_val_three]
  show (a.val * 8 + s.val) * 512 + h.val = (a.val * 8 + s.val) * 512 + h.val
  rfl

/-- The sum over the slabs, at sublane `s` and channel `h`. -/
theorem red_apply (src : FVec Ideal S1024x8x512 .f32) (s : Fin 8) (h : Fin 512) :
    multiReduction (F := Ideal) .add [0] S8x512 src 0x00000000#32 reduces_S1024x8x512_S8x512 (.inl rfl) rfl (ix2 s h)
      = ∑ a : Fin 1024, src (ix3 a s h) := by
  refine (Ideal.multiReduction_add_single src 0x00000000#32 reduces_S1024x8x512_S8x512 (.inl rfl) rfl (ix2 s h)).trans ?_
  refine Finset.sum_congr rfl fun a _ => congrArg src ?_
  funext d
  match d with
  | ⟨0, _⟩ => rfl
  | ⟨1, _⟩ => rfl
  | ⟨2, _⟩ => rfl

/-- The first accumulator's update at (0, s, h): what it held plus the tile's rows of sublane `s`, channel `h`. -/
theorem pay4_apply (x0 : FVec Ideal S8192x512 .f32) (xo : FVec Ideal S1x8x512 .f32) (s : Fin 8) (h : Fin 512) :
    k0_pay4 (F := Ideal) x0 xo (ix3 (0 : Fin 1) s h)
      = xo (ix3 (0 : Fin 1) s h) + ∑ a : Fin 1024, x0 (ix2 (rowOf a s) h) := by
  unfold k0_pay4
  show shapeCast S1x8x512 (addf (shapeCast S8x512 xo shapeCasts_S1x8x512_S8x512)
    (multiReduction (F := Ideal) .add [0] S8x512 (k0_pay3 x0) 0x00000000#32 reduces_S1024x8x512_S8x512 (.inl rfl) rfl))
    shapeCasts_S8x512_S1x8x512 (ix3 (0 : Fin 1) s h) = _
  refine (shapeCast_apply _ _ (ix3 (0 : Fin 1) s h) (ix2 s h) ?_).trans ?_
  · rw [Shape.rowMajor_val_two, Shape.rowMajor_val_three]
    show s.val * 512 + h.val = (0 * 8 + s.val) * 512 + h.val
    omega
  refine (addf_apply _ _ _).trans ?_
  refine congrArg₂ (· + ·) ?_ ?_
  · refine shapeCast_apply _ _ (ix2 s h) (ix3 (0 : Fin 1) s h) ?_
    rw [Shape.rowMajor_val_two, Shape.rowMajor_val_three]
    show (0 * 8 + s.val) * 512 + h.val = s.val * 512 + h.val
    omega
  · exact (red_apply _ s h).trans (Finset.sum_congr rfl fun a _ => pay3_apply x0 a s h)

/-- The second accumulator's update at (0, s, h): what it held plus the squares of those rows' entries. -/
theorem pay5_apply (x0 : FVec Ideal S8192x512 .f32) (xo : FVec Ideal S1x8x512 .f32) (s : Fin 8) (h : Fin 512) :
    k0_pay5 (F := Ideal) x0 xo (ix3 (0 : Fin 1) s h)
      = xo (ix3 (0 : Fin 1) s h) + ∑ a : Fin 1024, x0 (ix2 (rowOf a s) h) * x0 (ix2 (rowOf a s) h) := by
  unfold k0_pay5
  show shapeCast S1x8x512 (addf (shapeCast S8x512 xo shapeCasts_S1x8x512_S8x512)
    (multiReduction (F := Ideal) .add [0] S8x512 (mulf (k0_pay3 x0) (k0_pay3 x0)) 0x00000000#32 reduces_S1024x8x512_S8x512 (.inl rfl) rfl))
    shapeCasts_S8x512_S1x8x512 (ix3 (0 : Fin 1) s h) = _
  refine (shapeCast_apply _ _ (ix3 (0 : Fin 1) s h) (ix2 s h) ?_).trans ?_
  · rw [Shape.rowMajor_val_two, Shape.rowMajor_val_three]
    show s.val * 512 + h.val = (0 * 8 + s.val) * 512 + h.val
    omega
  refine (addf_apply _ _ _).trans ?_
  refine congrArg₂ (· + ·) ?_ ?_
  · refine shapeCast_apply _ _ (ix2 s h) (ix3 (0 : Fin 1) s h) ?_
    rw [Shape.rowMajor_val_two, Shape.rowMajor_val_three]
    show (0 * 8 + s.val) * 512 + h.val = s.val * 512 + h.val
    omega
  · refine (red_apply _ s h).trans (Finset.sum_congr rfl fun a _ => ?_)
    refine (mulf_apply _ _ _).trans ?_
    rw [pay3_apply x0 a s h]

/-- The block the first step stores before it accumulates is zero everywhere. -/
theorem pay1_apply (j : S1x8x512.Idx) : k0_pay1 (F := Ideal) j = 0 := by
  unfold k0_pay1
  show shapeCast S1x8x512 (broadcast S8x512 (Ideal.ofBits .f32 0x00000000#32)) shapeCasts_S8x512_S1x8x512 j = 0
  unfold shapeCast
  exact Ideal.ofBits_zero_f32

theorem pay2_apply (j : S1x8x512.Idx) : k0_pay2 (F := Ideal) j = 0 := by
  unfold k0_pay2
  show shapeCast S1x8x512 (broadcast S8x512 (Ideal.ofBits .f32 0x00000000#32)) shapeCasts_S8x512_S1x8x512 j = 0
  unfold shapeCast
  exact Ideal.ofBits_zero_f32

/-! ## Tiles and groups -/

/-- The sum of a column over the rows of tile `n` (1024·8 consecutive rows) that sit on sublane `s`. -/
def tile (g : ℕ → EReal) (n s : ℕ) : EReal := ∑ a : Fin 1024, g (n * (1024 * 8) + (a.val * 8 + s))

/-- A group's partial sum is the sum of its two tiles'. -/
theorem blockSum_two (g : ℕ → EReal) (j s : ℕ) : blockSum 2 1024 g j s = tile g (j * 2) s + tile g (j * 2 + 1) s := by
  unfold blockSum tile
  rw [Fin.sum_univ_two]
  rfl

variable (V : (c : Dev nD) → (b : Ref sig .tc) → Buf (Elt Ideal) ((c : Thread nD τ).loc b))

/-- The [32768, 512] matrix as the statistics pass finds it. -/
abbrev xarr (c : Dev nD) : S32768x512.Idx → EReal := V c main_v0

/-- The windows' index maps over the grid: the matrix window's block at point `t` is row block `t`; both result windows'
    block is group `t / 2`. -/
theorem idx_facts : ∀ t : Fin cfg0.N, win0_0.index t (0 : Fin 2) = t.val ∧ win0_0.index t (1 : Fin 2) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0 :=
  (by decide +kernel : ∀ t : Fin grid0.N, _)

/-- The matrix's block at point `t`. -/
abbrev xblk (c : Dev nD) (t : Fin cfg0.N) : FVec Ideal S8192x512 .f32 := iblk0 (F := Ideal) V c 0 t

/-- Its entry (ρ, h) is the matrix's at row `t·8192 + ρ`. -/
theorem xblk_eq (c : Dev nD) (t : Fin cfg0.N) (ρ : Fin 8192) (h : Fin 512) (hr : t.val * (1024 * 8) + ρ.val < 32768) :
    xblk V c t (ix2 ρ h) = xarr V c (ix2 ⟨t.val * (1024 * 8) + ρ.val, hr⟩ h) := by
  obtain ⟨e0, e1, -⟩ := idx_facts t
  show iblk0 (F := Ideal) V c 0 t (ix2 ρ h) = _
  unfold iblk0
  rw [View.read_apply]
  show V c main_v0 _ = V c main_v0 _
  refine congrArg (V c main_v0) ?_
  funext a
  apply Fin.ext
  match a with
  | ⟨0, _⟩ => show win0_0.index t 0 * 8192 + 1 * ρ.val = t.val * (1024 * 8) + ρ.val; rw [e0]; omega
  | ⟨1, _⟩ => show win0_0.index t 1 * 512 + 1 * h.val = h.val; rw [e1]; omega

theorem row_lt (t : Fin cfg0.N) (ρ : Fin 8192) : t.val * (1024 * 8) + ρ.val < 32768 := by
  have hN : t.val < 4 := lt_of_lt_of_eq t.isLt (show cfg0.N = 4 from N_0)
  omega

/-- … so it is the column's value at that row, -/
theorem xblk_col (c : Dev nD) (t : Fin cfg0.N) (ρ : Fin 8192) (h : Fin 512) :
    xblk V c t (ix2 ρ h) = colOf (xarr V c) h (t.val * (1024 * 8) + ρ.val) := by
  unfold colOf
  rw [dif_pos (row_lt t ρ)]
  exact xblk_eq V c t ρ h (row_lt t ρ)

/-- … and its square the squared matrix's column there. -/
theorem xblk_sq_col (c : Dev nD) (t : Fin cfg0.N) (ρ : Fin 8192) (h : Fin 512) :
    xblk V c t (ix2 ρ h) * xblk V c t (ix2 ρ h) = colOf (sq (xarr V c)) h (t.val * (1024 * 8) + ρ.val) := by
  unfold colOf
  rw [dif_pos (row_lt t ρ), xblk_eq V c t ρ h (row_lt t ρ)]
  rfl

/-! ## The accumulators after each point -/

/-- After the first step of a group the first accumulator holds that tile's sums. -/
theorem stepA1 (c : Dev nD) (t : Fin cfg0.N) (h0 : t.val % 2 = 0) (s : Fin 8) (h : Fin 512) :
    (outsAt0 (F := Ideal) V c t.val t.isLt).1 (ix3 (0 : Fin 1) s h) = tile (colOf (xarr V c) h) t.val s.val := by
  rw [outsAt0_A V c t h0]
  dsimp only
  refine (congrFun (out_A_1 (F := Ideal) c (grid0.coords t) (ms0_0 t) (hs0_0 t) (ms0_1 t) (hs0_1 t) (ms0_2 t) (hs0_2 t)
    ((hcond0_0 t).mpr h0) (iblk0 (F := Ideal) V c 0 t)) (ix3 (0 : Fin 1) s h)).trans ?_
  refine (pay4_apply (xblk V c t) (k0_pay1 (F := Ideal)) s h).trans ?_
  rw [pay1_apply, zero_add]
  unfold tile
  exact Finset.sum_congr rfl fun a _ => xblk_col V c t (rowOf a s) h

/-- After a later step it holds what it held plus that tile's sums. -/
theorem stepB1 (c : Dev nD) (t : Fin cfg0.N) (h0 : ¬t.val % 2 = 0) (s : Fin 8) (h : Fin 512) :
    (outsAt0 (F := Ideal) V c t.val t.isLt).1 (ix3 (0 : Fin 1) s h)
      = (outsAt0 (F := Ideal) V c (t.val - 1) (Nat.lt_of_le_of_lt (Nat.sub_le _ _) t.isLt)).1 (ix3 (0 : Fin 1) s h)
        + tile (colOf (xarr V c) h) t.val s.val := by
  rw [outsAt0_B V c t h0]
  dsimp only
  refine (congrFun (out_B_1 (F := Ideal) c (grid0.coords t) (ms0_0 t) (hs0_0 t) (ms0_1 t) (hs0_1 t) (ms0_2 t) (hs0_2 t)
    (fun hh => h0 ((hcond0_0 t).mp hh)) (iblk0 (F := Ideal) V c 0 t)
    (outsAt0 (F := Ideal) V c (t.val - 1) (Nat.lt_of_le_of_lt (Nat.sub_le _ _) t.isLt)).1
    (outsAt0 (F := Ideal) V c (t.val - 1) (Nat.lt_of_le_of_lt (Nat.sub_le _ _) t.isLt)).2) (ix3 (0 : Fin 1) s h)).trans ?_
  refine (pay4_apply (xblk V c t) _ s h).trans ?_
  unfold tile
  exact congrArg (_ + ·) (Finset.sum_congr rfl fun a _ => xblk_col V c t (rowOf a s) h)

/-- The same two for the squares. -/
theorem stepA2 (c : Dev nD) (t : Fin cfg0.N) (h0 : t.val % 2 = 0) (s : Fin 8) (h : Fin 512) :
    (outsAt0 (F := Ideal) V c t.val t.isLt).2 (ix3 (0 : Fin 1) s h) = tile (colOf (sq (xarr V c)) h) t.val s.val := by
  rw [outsAt0_A V c t h0]
  dsimp only
  refine (congrFun (out_A_2 (F := Ideal) c (grid0.coords t) (ms0_0 t) (hs0_0 t) (ms0_1 t) (hs0_1 t) (ms0_2 t) (hs0_2 t)
    ((hcond0_0 t).mpr h0) (iblk0 (F := Ideal) V c 0 t)) (ix3 (0 : Fin 1) s h)).trans ?_
  refine (pay5_apply (xblk V c t) (k0_pay2 (F := Ideal)) s h).trans ?_
  rw [pay2_apply, zero_add]
  unfold tile
  exact Finset.sum_congr rfl fun a _ => xblk_sq_col V c t (rowOf a s) h

theorem stepB2 (c : Dev nD) (t : Fin cfg0.N) (h0 : ¬t.val % 2 = 0) (s : Fin 8) (h : Fin 512) :
    (outsAt0 (F := Ideal) V c t.val t.isLt).2 (ix3 (0 : Fin 1) s h)
      = (outsAt0 (F := Ideal) V c (t.val - 1) (Nat.lt_of_le_of_lt (Nat.sub_le _ _) t.isLt)).2 (ix3 (0 : Fin 1) s h)
        + tile (colOf (sq (xarr V c)) h) t.val s.val := by
  rw [outsAt0_B V c t h0]
  dsimp only
  refine (congrFun (out_B_2 (F := Ideal) c (grid0.coords t) (ms0_0 t) (hs0_0 t) (ms0_1 t) (hs0_1 t) (ms0_2 t) (hs0_2 t)
    (fun hh => h0 ((hcond0_0 t).mp hh)) (iblk0 (F := Ideal) V c 0 t)
    (outsAt0 (F := Ideal) V c (t.val - 1) (Nat.lt_of_le_of_lt (Nat.sub_le _ _) t.isLt)).1
    (outsAt0 (F := Ideal) V c (t.val - 1) (Nat.lt_of_le_of_lt (Nat.sub_le _ _) t.isLt)).2) (ix3 (0 : Fin 1) s h)).trans ?_
  refine (pay5_apply (xblk V c t) _ s h).trans ?_
  unfold tile
  exact congrArg (_ + ·) (Finset.sum_congr rfl fun a _ => xblk_sq_col V c t (rowOf a s) h)

/-- At the second step of group `t / 2` the first accumulator holds the group's partial sum. -/
theorem acc1_last (c : Dev nD) (t : Fin cfg0.N) (ht : t.val % 2 = 1) (s : Fin 8) (h : Fin 512) :
    (outsAt0 (F := Ideal) V c t.val t.isLt).1 (ix3 (0 : Fin 1) s h)
      = blockSum 2 1024 (colOf (xarr V c) h) (t.val / 2) s.val := by
  have hlt : t.val - 1 < cfg0.N := Nat.lt_of_le_of_lt (Nat.sub_le _ _) t.isLt
  rw [stepB1 V c t (by omega) s h]
  refine (congrArg (· + _) (stepA1 V c ⟨t.val - 1, hlt⟩ (by show (t.val - 1) % 2 = 0; omega) s h)).trans ?_
  rw [blockSum_two]
  show tile _ (t.val - 1) _ + tile _ t.val _ = _
  rw [show t.val / 2 * 2 = t.val - 1 from by omega, show t.val - 1 + 1 = t.val from by omega]

theorem acc2_last (c : Dev nD) (t : Fin cfg0.N) (ht : t.val % 2 = 1) (s : Fin 8) (h : Fin 512) :
    (outsAt0 (F := Ideal) V c t.val t.isLt).2 (ix3 (0 : Fin 1) s h)
      = blockSum 2 1024 (colOf (sq (xarr V c)) h) (t.val / 2) s.val := by
  have hlt : t.val - 1 < cfg0.N := Nat.lt_of_le_of_lt (Nat.sub_le _ _) t.isLt
  rw [stepB2 V c t (by omega) s h]
  refine (congrArg (· + _) (stepA2 V c ⟨t.val - 1, hlt⟩ (by show (t.val - 1) % 2 = 0; omega) s h)).trans ?_
  rw [blockSum_two]
  show tile _ (t.val - 1) _ + tile _ t.val _ = _
  rw [show t.val / 2 * 2 = t.val - 1 from by omega, show t.val - 1 + 1 = t.val from by omega]

/-! ## From the flushed blocks to the two result arrays -/

/-- The first result array: group `j`'s partial sum of channel `h` on sublane `s`, at (j, s, h). -/
def sumArr (c : Dev nD) : S2x8x512.Idx → EReal :=
  fun i => blockSum 2 1024 (colOf (xarr V c) (i 2)) (i 0).val (i 1).val

/-- The second: the same of the squares. -/
def sqArr (c : Dev nD) : S2x8x512.Idx → EReal :=
  fun i => blockSum 2 1024 (colOf (sq (xarr V c)) (i 2)) (i 0).val (i 1).val

/-- Entry (z, s, h) of the block a window of block shape [1, 8, 512] moves at point `t`, as an entry of the staging
    buffer and as an entry of the [2, 8, 512] array: (0, s, h) there, (t / 2, s, h) here. -/
theorem blk1_coords (t : Fin cfg0.N) (y : ((cfg0.win 1).xblock (cfg0.grid.coords t)).Idx) :
    ∃ (s : Fin 8) (h : Fin 512) (j : Fin 2), j.val = t.val / 2
      ∧ (cfg0.win 1).xinj (grid0.coords t) y = ix3 (0 : Fin 1) s h
      ∧ ((cfg0.win 1).blk t).view.emb y = ix3 j s h := by
  obtain ⟨-, -, e0, e1, e2, -⟩ := idx_facts t
  have hN : t.val < 4 := lt_of_lt_of_eq t.isLt (show cfg0.N = 4 from N_0)
  have y0 : (y 0).val < 1 := (y 0).isLt
  have y1 : (y 1).val < 8 := (y 1).isLt
  have y2 : (y 2).val < 512 := (y 2).isLt
  refine ⟨⟨(y 1).val, y1⟩, ⟨(y 2).val, y2⟩, ⟨t.val / 2, by omega⟩, rfl, ?_, ?_⟩
  · funext a
    apply Fin.ext
    match a with
    | ⟨0, _⟩ => show (y 0).val = 0; omega
    | ⟨1, _⟩ => rfl
    | ⟨2, _⟩ => rfl
  · funext a
    apply Fin.ext
    match a with
    | ⟨0, _⟩ => show win0_1.index t 0 * 1 + 1 * (y 0).val = t.val / 2; rw [e0]; omega
    | ⟨1, _⟩ => show win0_1.index t 1 * 8 + 1 * (y 1).val = (y 1).val; rw [e1]; omega
    | ⟨2, _⟩ => show win0_1.index t 2 * 512 + 1 * (y 2).val = (y 2).val; rw [e2]; omega

theorem blk2_coords (t : Fin cfg0.N) (y : ((cfg0.win 2).xblock (cfg0.grid.coords t)).Idx) :
    ∃ (s : Fin 8) (h : Fin 512) (j : Fin 2), j.val = t.val / 2
      ∧ (cfg0.win 2).xinj (grid0.coords t) y = ix3 (0 : Fin 1) s h
      ∧ ((cfg0.win 2).blk t).view.emb y = ix3 j s h := by
  obtain ⟨-, -, -, -, -, e0, e1, e2⟩ := idx_facts t
  have hN : t.val < 4 := lt_of_lt_of_eq t.isLt (show cfg0.N = 4 from N_0)
  have y0 : (y 0).val < 1 := (y 0).isLt
  have y1 : (y 1).val < 8 := (y 1).isLt
  have y2 : (y 2).val < 512 := (y 2).isLt
  refine ⟨⟨(y 1).val, y1⟩, ⟨(y 2).val, y2⟩, ⟨t.val / 2, by omega⟩, rfl, ?_, ?_⟩
  · funext a
    apply Fin.ext
    match a with
    | ⟨0, _⟩ => show (y 0).val = 0; omega
    | ⟨1, _⟩ => rfl
    | ⟨2, _⟩ => rfl
  · funext a
    apply Fin.ext
    match a with
    | ⟨0, _⟩ => show win0_2.index t 0 * 1 + 1 * (y 0).val = t.val / 2; rw [e0]; omega
    | ⟨1, _⟩ => show win0_2.index t 1 * 8 + 1 * (y 1).val = (y 1).val; rw [e1]; omega
    | ⟨2, _⟩ => show win0_2.index t 2 * 512 + 1 * (y 2).val = (y 2).val; rw [e2]; omega

/-- What a group's second step writes back is that group's block of the first result array. -/
theorem flushed1_eq (c : Dev nD) (t : Fin cfg0.N) (hf : (cfg0.win 1).flush t = true) :
    (dat0 (F := Ideal) V c).flushed 1 t = ((cfg0.win 1).blk t).view.read (Elt Ideal) (sumArr V c) := by
  have ht : t.val % 2 = 1 := (flush0_1 t).mp hf
  show (cfg0.win 1).cut (grid0.coords t) ((dat0 (F := Ideal) V c).after 1 t) = _
  rw [after0_1]
  funext y
  rw [View.read_apply]
  obtain ⟨s, h, j, hj, e1, e2⟩ := blk1_coords t y
  show (outsAt0 (F := Ideal) V c t.val t.isLt).1 ((cfg0.win 1).xinj (grid0.coords t) y) = sumArr V c (((cfg0.win 1).blk t).view.emb y)
  rw [e1, e2, acc1_last V c t ht s h, ← hj]
  rfl

theorem flushed2_eq (c : Dev nD) (t : Fin cfg0.N) (hf : (cfg0.win 2).flush t = true) :
    (dat0 (F := Ideal) V c).flushed 2 t = ((cfg0.win 2).blk t).view.read (Elt Ideal) (sqArr V c) := by
  have ht : t.val % 2 = 1 := (flush0_2 t).mp hf
  show (cfg0.win 2).cut (grid0.coords t) ((dat0 (F := Ideal) V c).after 2 t) = _
  rw [after0_2]
  funext y
  rw [View.read_apply]
  obtain ⟨s, h, j, hj, e1, e2⟩ := blk2_coords t y
  show (outsAt0 (F := Ideal) V c t.val t.isLt).2 ((cfg0.win 2).xinj (grid0.coords t) y) = sqArr V c (((cfg0.win 2).blk t).view.emb y)
  rw [e1, e2, acc2_last V c t ht s h, ← hj]
  rfl

/-- Group `j`'s entries are covered by the block written back at point `j·2 + 1`. -/
theorem cover1 (i : S2x8x512.Idx) :
    ∃ t : Fin cfg0.N, (cfg0.win 1).flush t = true ∧ i ∈ ((cfg0.win 1).blk t).view.set := by
  have i0 : (i 0).val < 2 := (i 0).isLt
  have i1 : (i 1).val < 8 := (i 1).isLt
  have i2 : (i 2).val < 512 := (i 2).isLt
  have hN : cfg0.N = 4 := N_0
  let t : Fin cfg0.N := ⟨(i 0).val * 2 + 1, by omega⟩
  obtain ⟨-, -, e0, e1, e2, -⟩ := idx_facts t
  refine ⟨t, (flush0_1 t).mpr (by show ((i 0).val * 2 + 1) % 2 = 1; omega), ?_⟩
  show i ∈ ((View.whole main_v3_0).slice (win0_1.rect t)).set
  rw [View.set_slice_whole, Rect.mem_set_unit]
  intro a
  match a with
  | ⟨0, _⟩ =>
    show win0_1.index t 0 * 1 ≤ (i 0).val ∧ (i 0).val < win0_1.index t 0 * 1 + 1
    rw [e0]; show ((i 0).val * 2 + 1) / 2 * 1 ≤ (i 0).val ∧ (i 0).val < ((i 0).val * 2 + 1) / 2 * 1 + 1; omega
  | ⟨1, _⟩ =>
    show win0_1.index t 1 * 8 ≤ (i 1).val ∧ (i 1).val < win0_1.index t 1 * 8 + 8
    rw [e1]; omega
  | ⟨2, _⟩ =>
    show win0_1.index t 2 * 512 ≤ (i 2).val ∧ (i 2).val < win0_1.index t 2 * 512 + 512
    rw [e2]; omega

theorem cover2 (i : S2x8x512.Idx) :
    ∃ t : Fin cfg0.N, (cfg0.win 2).flush t = true ∧ i ∈ ((cfg0.win 2).blk t).view.set := by
  have i0 : (i 0).val < 2 := (i 0).isLt
  have i1 : (i 1).val < 8 := (i 1).isLt
  have i2 : (i 2).val < 512 := (i 2).isLt
  have hN : cfg0.N = 4 := N_0
  let t : Fin cfg0.N := ⟨(i 0).val * 2 + 1, by omega⟩
  obtain ⟨-, -, -, -, -, e0, e1, e2⟩ := idx_facts t
  refine ⟨t, (flush0_2 t).mpr (by show ((i 0).val * 2 + 1) % 2 = 1; omega), ?_⟩
  show i ∈ ((View.whole main_v3_1).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    rw [e0]; show ((i 0).val * 2 + 1) / 2 * 1 ≤ (i 0).val ∧ (i 0).val < ((i 0).val * 2 + 1) / 2 * 1 + 1; omega
  | ⟨1, _⟩ =>
    show win0_2.index t 1 * 8 ≤ (i 1).val ∧ (i 1).val < win0_2.index t 1 * 8 + 8
    rw [e1]; omega
  | ⟨2, _⟩ =>
    show win0_2.index t 2 * 512 ≤ (i 2).val ∧ (i 2).val < win0_2.index t 2 * 512 + 512
    rw [e2]; omega

/-- After the statistics pass its first result array holds, at group `j`, sublane `s`, channel `h`, the partial sum of
    the channel over the group's 2 tiles of 1024·8 rows, sublane `s`. -/
theorem final_sum (c : Dev nD) (j : Fin 2) (s : Fin 8) (h : Fin 512) :
    ((dat0 (F := Ideal) V c).arrAt 1 cfg0.N : S2x8x512.Idx → EReal) (ix3 j s h)
      = blockSum 2 1024 (colOf (xarr V c) h) j.val s.val := by
  rw [(dat0 (F := Ideal) V c).arrAt_eq_of_cover 1 (sumArr V c) (flushed1_eq V c) cover1]
  rfl

/-- … and its second the same partial sum of the squares. -/
theorem final_sq (c : Dev nD) (j : Fin 2) (s : Fin 8) (h : Fin 512) :
    ((dat0 (F := Ideal) V c).arrAt 2 cfg0.N : S2x8x512.Idx → EReal) (ix3 j s h)
      = blockSum 2 1024 (colOf (sq (xarr V c)) h) j.val s.val := by
  rw [(dat0 (F := Ideal) V c).arrAt_eq_of_cover 2 (sqArr V c) (flushed2_eq V c) cover2]
  rfl

end Cert.KernelIdeal.StatsValue

end
-- ==== Proof.KernelApply.lean ====
/-
  The normalising pass, read as a value: what its result array holds once every block has been written back.

  The pass visits the [32768, 512] matrix in sixteen blocks of 2048 rows. At each block it adds up, channel by channel,
  the sixteen rows of each of the two [16, 512] arrays of partial sums it is given: these are the channel's two sums
  `s₁` and `s₂`. From them, the multiplier row `γ` and the offset row `β` it forms, as rows of 512 channels,
  `mean = s₁·2⁻¹⁵`, `var = max (s₂·2⁻¹⁵ − mean·mean) 0`, `scale = γ·(var + ε)^(-1/2)` and `shift = β − mean·scale`,
  repeats the last two down the block's 2048 rows and stores `x·scale + shift` for every entry `x` of the block. These
  are the specification's operations in the specification's order, so the value stored at row `p` of block `t` and
  channel `h` is `outAt` of the matrix's entry at row `2048·t + p`, of the two sums over the sixteen partial sums at
  channel `h`, and of `γ` and `β` at `h` (`pay_apply`, `flushed_eq`). The partial sums, `γ` and `β` are read whole at
  every block; the matrix and the result move with the block along the rows. The sixteen blocks tile the result's
  rows, each is written back at its own point, and row `r` lies in block `r / 2048`: so after the pass the result
  array holds the normalised entry at every row and channel (`final_out`).
-/
import proofs.«138052_g2000204283482131_pallaspilot1_46_6_alg».proof.Proof.Gen.KernelIdeal.Frame
import proofs.«138052_g2000204283482131_pallaspilot1_46_6_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open Cert.BatchNorm

namespace Cert.KernelIdeal.ApplyValue

open Cert.KernelIdeal Cert.KernelIdeal.Gen

variable (V : (c : Dev nD) → (b : Ref sig .tc) → Buf (Elt Ideal) ((c : Thread nD τ).loc b))

/-! ## The stored value at one entry of a block -/

/-- The sum over the sixteen rows of a [16, 512] array, kept as a [1, 512] row, read at channel `h`. -/
private theorem colsum_apply (s : Vec Ideal S16x512 .f32) (hφ : FTy.f32 = FTy.f32 ∨ FTy.f32 = FTy.bf16)
    (hacc : (0x00000000#32 : BitVec 32) = 0x00000000#32) (h : Fin 512) :
    (shapeCast S1x512 (multiReduction (F := Ideal) .add [0] S512 s 0x00000000#32 reduces_S16x512_S512 hφ hacc)
        shapeCasts_S512_S1x512 : S1x512.Idx → EReal) (ix2 0 h)
      = ∑ q : Fin 16, (s : S16x512.Idx → EReal) (ix2 q h) := by
  refine (shapeCast_apply _ _ (ix2 0 h) (ix1 h) ?_).trans ?_
  · rw [Shape.rowMajor_val_one, Shape.rowMajor_val_two]; show h.val = 0 * 512 + h.val; omega
  · refine (Ideal.multiReduction_add_single s 0x00000000#32 reduces_S16x512_S512 hφ hacc (ix1 h)).trans ?_
    refine Finset.sum_congr rfl fun q _ => congrArg s ?_
    funext a; apply Fin.ext; match a with | ⟨0, _⟩ => rfl | ⟨1, _⟩ => rfl

/-- The reciprocal square root of a vector, read at an index. -/
private theorem rsqrt_apply {s : Shape} {φ : FTy} (v : FVec Ideal s φ) (i : s.Idx) : rsqrt v i = Ideal.rsqrt (v i) := rfl

/-- The body's stored value at row `p` of its block and channel `h`: the block's entry normalised with the channel's
    statistics, the two row sums taken over the sixteen partial sums. -/
private theorem pay_apply (s1 s2 : Vec Ideal S16x512 .f32) (g b : Vec Ideal S1x512 .f32) (x : Vec Ideal S2048x512 .f32)
    (p : Fin 2048) (h : Fin 512) :
    (k1_pay1 (F := Ideal) s1 s2 g b x : S2048x512.Idx → EReal) (ix2 p h)
      = outAt (x (ix2 p h)) (∑ q : Fin 16, s1 (ix2 q h)) (∑ q : Fin 16, s2 (ix2 q h)) (g (ix2 0 h)) (b (ix2 0 h)) := by
  unfold k1_pay1
  dsimp only
  rw [addf_apply, mulf_apply, broadcastTo_1b_ab_apply, broadcastTo_1b_ab_apply]
  simp only [subf_apply, mulf_apply, addf_apply, maximumf_apply, rsqrt_apply, broadcast_apply, shapeCast_self]
  rw [colsum_apply s1 _ _ h, colsum_apply s2 _ _ h]
  rfl

/-! ## Each input block as entries of its array -/

/-- The zero offsets of a whole-buffer access, however they are spelt. -/
private theorem hz2 : (![0, 0] : Fin 2 → Nat) = fun _ => 0 := funext fun a => by fin_cases a <;> rfl

/-- The block index maps over the grid: the matrix and the result move with the point along the rows; the partial
    sums, the multiplier and the offset arrays are read whole at every point. -/
private theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The matrix's block at point `t` is its rows `2048·t … 2048·t + 2047`. -/
private theorem iblk_x (c : Dev nD) (t : Fin cfg1.N) (p : Fin 2048) (h : Fin 512) (k : Fin 32768)
    (hk : k.val = t.val * 2048 + p.val) :
    (iblk1 V c 0 t : Vec Ideal S2048x512 .f32) (ix2 p h) = (V c main_v0 : S32768x512.Idx → EReal) (ix2 k h) := by
  obtain ⟨e0, e1, -⟩ := idx_facts t
  unfold iblk1
  rw [View.read_apply]
  show V c main_v0 _ = V c main_v0 _
  refine congrArg _ ?_
  funext a
  apply Fin.ext
  match a with
  | ⟨0, _⟩ => show win1_0.index t 0 * 2048 + 1 * p.val = k.val; rw [e0, hk]; omega
  | ⟨1, _⟩ => show win1_0.index t 1 * 512 + 1 * h.val = h.val; rw [e1]; omega

/-- The partial sums of the entries are read whole at every point. -/
private theorem iblk_s1 (c : Dev nD) (t : Fin cfg1.N) (q : Fin 16) (h : Fin 512) :
    (iblk1 V c 1 t : Vec Ideal S16x512 .f32) (ix2 q h) = (V c main_v4 : S16x512.Idx → EReal) (ix2 q h) := by
  obtain ⟨-, -, e0, e1, -⟩ := idx_facts t
  unfold iblk1
  rw [View.read_apply]
  show V c main_v4 _ = V c main_v4 _
  refine congrArg _ ?_
  funext a
  apply Fin.ext
  match a with
  | ⟨0, _⟩ => show win1_1.index t 0 * 16 + 1 * q.val = q.val; rw [e0]; omega
  | ⟨1, _⟩ => show win1_1.index t 1 * 512 + 1 * h.val = h.val; rw [e1]; omega

/-- The partial sums of the squares are read whole at every point. -/
private theorem iblk_s2 (c : Dev nD) (t : Fin cfg1.N) (q : Fin 16) (h : Fin 512) :
    (iblk1 V c 2 t : Vec Ideal S16x512 .f32) (ix2 q h) = (V c main_v5 : S16x512.Idx → EReal) (ix2 q h) := by
  obtain ⟨-, -, -, -, e0, e1, -⟩ := idx_facts t
  unfold iblk1
  rw [View.read_apply]
  show V c main_v5 _ = V c main_v5 _
  refine congrArg _ ?_
  funext a
  apply Fin.ext
  match a with
  | ⟨0, _⟩ => show win1_2.index t 0 * 16 + 1 * q.val = q.val; rw [e0]; omega
  | ⟨1, _⟩ => show win1_2.index t 1 * 512 + 1 * h.val = h.val; rw [e1]; omega

/-- The multipliers are read whole at every point. -/
private theorem iblk_g (c : Dev nD) (t : Fin cfg1.N) (h : Fin 512) :
    (iblk1 V c 3 t : Vec Ideal S1x512 .f32) (ix2 0 h) = (V c main_v1 : S1x512.Idx → EReal) (ix2 0 h) := by
  obtain ⟨-, -, -, -, -, -, e0, e1, -⟩ := idx_facts t
  unfold iblk1
  rw [View.read_apply]
  show V c main_v1 _ = V c main_v1 _
  refine congrArg _ ?_
  funext a
  apply Fin.ext
  match a with
  | ⟨0, _⟩ => show win1_3.index t 0 * 1 + 1 * 0 = 0; rw [e0]
  | ⟨1, _⟩ => show win1_3.index t 1 * 512 + 1 * h.val = h.val; rw [e1]; omega

/-- The offsets are read whole at every point. -/
private theorem iblk_b (c : Dev nD) (t : Fin cfg1.N) (h : Fin 512) :
    (iblk1 V c 4 t : Vec Ideal S1x512 .f32) (ix2 0 h) = (V c main_v2 : S1x512.Idx → EReal) (ix2 0 h) := by
  obtain ⟨-, -, -, -, -, -, -, -, e0, e1, -⟩ := idx_facts t
  unfold iblk1
  rw [View.read_apply]
  show V c main_v2 _ = V c main_v2 _
  refine congrArg _ ?_
  funext a
  apply Fin.ext
  match a with
  | ⟨0, _⟩ => show win1_4.index t 0 * 1 + 1 * 0 = 0; rw [e0]
  | ⟨1, _⟩ => show win1_4.index t 1 * 512 + 1 * h.val = h.val; rw [e1]; omega

/-- The entry at row `r`, channel `h`, normalised with the channel's statistics taken from the sixteen partial sums. -/
private def normAt (c : Dev nD) (r : Fin 32768) (h : Fin 512) : EReal :=
  outAt ((V c main_v0 : S32768x512.Idx → EReal) (ix2 r h))
    (∑ q : Fin 16, (V c main_v4 : S16x512.Idx → EReal) (ix2 q h))
    (∑ q : Fin 16, (V c main_v5 : S16x512.Idx → EReal) (ix2 q h))
    ((V c main_v1 : S1x512.Idx → EReal) (ix2 0 h))
    ((V c main_v2 : S1x512.Idx → EReal) (ix2 0 h))

/-- The normalised matrix as one function of the index. -/
private def normArr (c : Dev nD) : S32768x512.Idx → EReal :=
  fun i => normAt V c ⟨(i 0).val, idx2_lt0 i⟩ ⟨(i 1).val, idx2_lt1 i⟩

/-- The normalised matrix at an index whose coordinates are `r` and `h`. -/
private theorem normArr_apply (c : Dev nD) (i : S32768x512.Idx) (r : Fin 32768) (h : Fin 512)
    (h0 : (i 0).val = r.val) (h1 : (i 1).val = h.val) : normArr V c i = normAt V c r h := by
  have e0 : (⟨(i 0).val, idx2_lt0 i⟩ : Fin 32768) = r := Fin.ext h0
  have e1 : (⟨(i 1).val, idx2_lt1 i⟩ : Fin 512) = h := Fin.ext h1
  unfold normArr
  rw [e0, e1]

/-! ## From the blocks to the result array -/

/-- What point `t` writes back is block `t` of the normalised matrix. -/
private theorem flushed_eq (c : Dev nD) (t : Fin cfg1.N) :
    (dat1 (F := Ideal) V c).flushed 5 t = ((cfg1.win 5).blk t).view.read (Elt Ideal) (normArr V c) := by
  show (cfg1.win 5).cut (grid1.coords t) ((dat1 V c).after 5 t) = _
  rw [after1_5]
  unfold out1_5
  rw [View.canon_unit_zero hz2]
  simp only [View.ld_unit_zero (S := S16x512) hz2, View.ld_unit_zero (S := S1x512) hz2, View.ld_unit_zero (S := S2048x512) hz2]
  funext j
  have hN : t.val < 16 := lt_of_lt_of_eq t.isLt (show cfg1.N = 16 from N_1)
  have hp : (j 0).val < 2048 := (j 0).isLt
  have hh : (j 1).val < 512 := (j 1).isLt
  have hk : t.val * 2048 + (j 0).val < 32768 := by omega
  have e1 : (win1 5).xinj (grid1.coords t) j = (ix2 ⟨(j 0).val, hp⟩ ⟨(j 1).val, hh⟩ : S2048x512.Idx) := by
    funext a; apply Fin.ext; match a with | ⟨0, _⟩ => rfl | ⟨1, _⟩ => rfl
  obtain ⟨-, -, -, -, -, -, -, -, -, -, i0, i1⟩ := idx_facts t
  show k1_pay1 (F := Ideal) (iblk1 V c 1 t) (iblk1 V c 2 t) (iblk1 V c 3 t) (iblk1 V c 4 t) (iblk1 V c 0 t) ((win1 5).xinj (grid1.coords t) j)
    = normArr V c (((cfg1.win 5).blk t).view.emb j)
  rw [e1]
  refine (pay_apply (iblk1 V c 1 t) (iblk1 V c 2 t) (iblk1 V c 3 t) (iblk1 V c 4 t) (iblk1 V c 0 t) ⟨(j 0).val, hp⟩ ⟨(j 1).val, hh⟩).trans ?_
  rw [iblk_x V c t ⟨(j 0).val, hp⟩ ⟨(j 1).val, hh⟩ ⟨t.val * 2048 + (j 0).val, hk⟩ rfl, iblk_g, iblk_b]
  simp only [iblk_s1, iblk_s2]
  refine (normArr_apply V c _ ⟨t.val * 2048 + (j 0).val, hk⟩ ⟨(j 1).val, hh⟩ ?_ ?_).symm
  · show win1_5.index t 0 * 2048 + 1 * (j 0).val = t.val * 2048 + (j 0).val
    rw [i0]; omega
  · show win1_5.index t 1 * 512 + 1 * (j 1).val = (j 1).val
    rw [i1]; omega

/-- After the normalising pass its result array holds, at row `r` and channel `h`, the entry normalised with the
    channel's statistics taken as the sums of the sixteen partial sums the pass is given. -/
theorem final_out (c : Dev nD) (r : Fin 32768) (h : Fin 512) :
    ((dat1 (F := Ideal) V c).arrAt 5 cfg1.N : S32768x512.Idx → EReal) (ix2 r h)
      = outAt ((V c main_v0 : S32768x512.Idx → EReal) (ix2 r h))
          (∑ q : Fin 16, (V c main_v4 : S16x512.Idx → EReal) (ix2 q h))
          (∑ q : Fin 16, (V c main_v5 : S16x512.Idx → EReal) (ix2 q h))
          ((V c main_v1 : S1x512.Idx → EReal) (ix2 0 h))
          ((V c main_v2 : S1x512.Idx → EReal) (ix2 0 h)) := by
  have hr : r.val / 2048 < cfg1.N := by rw [show cfg1.N = 16 from N_1]; have := r.isLt; omega
  obtain ⟨-, -, -, -, -, -, -, -, -, -, i0, i1⟩ := idx_facts ⟨r.val / 2048, hr⟩
  refine ((dat1 (F := Ideal) V c).arrAt_apply_of_mem 5 (normArr V c) (fun t _ => flushed_eq V c t) cfg1.N
    ⟨r.val / 2048, hr⟩ (ix2 r h) hr (flush1_5 _) ?_).trans ?_
  · show (ix2 r h : S32768x512.Idx) ∈ ((View.whole main_v6).slice (win1_5.rect ⟨r.val / 2048, hr⟩)).set
    rw [View.set_slice_whole, Rect.mem_set_unit]
    intro a
    match a with
    | ⟨0, _⟩ =>
      show win1_5.index ⟨r.val / 2048, hr⟩ 0 * 2048 ≤ r.val ∧ r.val < win1_5.index ⟨r.val / 2048, hr⟩ 0 * 2048 + 2048
      rw [i0]; dsimp only; omega
    | ⟨1, _⟩ =>
      show win1_5.index ⟨r.val / 2048, hr⟩ 1 * 512 ≤ h.val ∧ h.val < win1_5.index ⟨r.val / 2048, hr⟩ 1 * 512 + 512
      rw [i1]; have := h.isLt; omega
  · exact normArr_apply V c (ix2 r h) r h rfl rfl

end Cert.KernelIdeal.ApplyValue

end
-- ==== Proof.Layout.lean ====
/-
  The re-layouts both programs apply around the two passes, read at an index, over the literal shapes of this
  certificate: the [64, 512, 512] input flattened to [32768, 512] (row `b·512 + n` is `(b, n)`) and the result
  un-flattened; the [2, 8, 512] partial sums viewed as [16, 512] (row `q` is `(q / 8, q % 8)`); a sum over the sixteen
  rows as the double sum over groups and sublanes; the host's sum over the two leading axes of [2, 8, 512]; and the
  normalised [64, 512, 512] array both programs are shown to produce.
-/
import proofs.«138052_g2000204283482131_pallaspilot1_46_6_alg».proof.Proof.Spec
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.BatchNorm

open Idealize.ShloMosaic Idealize.ShloMosaic.ValueIdx

abbrev T3 : Shape := ⟨3, ![64, 512, 512]⟩
abbrev T2 : Shape := ⟨2, ![32768, 512]⟩
abbrev P3 : Shape := ⟨3, ![2, 8, 512]⟩
abbrev P2 : Shape := ⟨2, ![16, 512]⟩
abbrev C1 : Shape := ⟨1, ![512]⟩

/-- Row `r` of the flattened matrix is `(r / 512, r % 512)` of the rank-3 array. -/
def flatAt (x3 : T3.Idx → EReal) (r : Fin 32768) (h : Fin 512) : EReal :=
  x3 (ix3 (⟨r.val / 512, by have := r.isLt; omega⟩ : Fin 64) (⟨r.val % 512, Nat.mod_lt _ (by decide)⟩ : Fin 512) h)

/-- The flattened matrix. -/
def flat (x3 : T3.Idx → EReal) : T2.Idx → EReal :=
  fun i => flatAt x3 ⟨(i 0).val, (i 0).isLt⟩ ⟨(i 1).val, (i 1).isLt⟩

theorem flat_ix2 (x3 : T3.Idx → EReal) (r : Fin 32768) (h : Fin 512) : flat x3 (ix2 r h) = flatAt x3 r h := rfl

/-- The flattening reshape is `flat`. -/
theorem shapeCast_flat (x3 : T3.Idx → EReal) (hc : T3.ShapeCasts T2) : shapeCast T2 x3 hc = flat x3 := by
  funext i
  obtain ⟨r, h, rfl⟩ : ∃ (r : Fin 32768) (h : Fin 512), i = ix2 r h := ⟨i 0, i 1, eq_ix2 i⟩
  rw [flat_ix2]
  unfold flatAt
  refine shapeCast_apply x3 hc _ _ ?_
  rw [Shape.rowMajor_val_three, Shape.rowMajor_val_two]
  show (r.val / 512 * 512 + r.val % 512) * 512 + h.val = r.val * 512 + h.val
  have := Nat.div_add_mod r.val 512
  omega

/-- The un-flattening reshape at `(b, n, h)` reads row `b·512 + n`. -/
theorem shapeCast_unflat (y2 : T2.Idx → EReal) (hc : T2.ShapeCasts T3) (b : Fin 64) (n : Fin 512) (h : Fin 512) :
    shapeCast T3 y2 hc (ix3 b n h) = y2 (ix2 (⟨b.val * 512 + n.val, by have := b.isLt; have := n.isLt; omega⟩ : Fin 32768) h) := by
  refine shapeCast_apply y2 hc _ _ ?_
  rw [Shape.rowMajor_val_three, Shape.rowMajor_val_two]
  rfl

/-- The flattened matrix at row `b·512 + n` is the rank-3 array at `(b, n)`. -/
theorem flatAt_mk (x3 : T3.Idx → EReal) (b : Fin 64) (n : Fin 512) (h : Fin 512) :
    flatAt x3 (⟨b.val * 512 + n.val, by have := b.isLt; have := n.isLt; omega⟩ : Fin 32768) h = x3 (ix3 b n h) := by
  unfold flatAt
  congr 1
  have hb : (b.val * 512 + n.val) / 512 = b.val := by have := n.isLt; omega
  have hn : (b.val * 512 + n.val) % 512 = n.val := by have := n.isLt; omega
  funext a
  match a with
  | ⟨0, _⟩ => exact Fin.ext hb
  | ⟨1, _⟩ => exact Fin.ext hn
  | ⟨2, _⟩ => rfl

/-- The partial sums viewed as sixteen rows: row `q` is group `q / 8`, sublane `q % 8`. -/
theorem shapeCast_rows16 (p : P3.Idx → EReal) (hc : P3.ShapeCasts P2) (q : Fin 16) (h : Fin 512) :
    shapeCast P2 p hc (ix2 q h)
      = p (ix3 (⟨q.val / 8, by have := q.isLt; omega⟩ : Fin 2) (⟨q.val % 8, Nat.mod_lt _ (by decide)⟩ : Fin 8) h) := by
  refine shapeCast_apply p hc _ _ ?_
  rw [Shape.rowMajor_val_three, Shape.rowMajor_val_two]
  show (q.val / 8 * 8 + q.val % 8) * 512 + h.val = q.val * 512 + h.val
  have := Nat.div_add_mod q.val 8
  omega

/-- A sum over sixteen rows is the double sum over two groups of eight sublanes. -/
theorem sum16 (f : ℕ → ℕ → EReal) :
    ∑ q : Fin 16, f (q.val / 8) (q.val % 8) = ∑ j : Fin 2, ∑ s : Fin 8, f j.val s.val := by
  have := sum_fin_mul (M := EReal) 2 8 (fun q => f (q / 8) (q % 8))
  rw [show (2 * 8 : ℕ) = 16 from rfl] at this
  rw [this]
  refine Finset.sum_congr rfl fun j _ => Finset.sum_congr rfl fun s _ => ?_
  have h1 : (s.val + 8 * j.val) / 8 = j.val := by have := s.isLt; omega
  have h2 : (s.val + 8 * j.val) % 8 = s.val := by have := s.isLt; omega
  rw [h1, h2]

/-- The host's sum of a [2, 8, 512] array over its two leading axes, read at channel `h`: the initial value plus the
    double sum over groups and sublanes. -/
theorem hostReduceAdd_lead2 (hr : P3.ReducesTo [0, 1] C1) (p : P3.Idx → EReal) (init : EReal) (h : Fin 512) :
    Ideal.hostReduceAdd hr p init (ix1 h) = init + ∑ j : Fin 2, ∑ s : Fin 8, p (ix3 j s h) := by
  unfold Ideal.hostReduceAdd
  congr 1
  let e : Fin 2 × Fin 8 ↪ P3.Idx :=
    ⟨fun q => ix3 q.1 q.2 h, fun q q' hq => Prod.ext (congrFun hq 0) (congrFun hq 1)⟩
  have hset : Finset.univ.filter (fun i : P3.Idx => hr.drop i = ix1 h) = Finset.univ.map e := by
    ext i
    simp only [Finset.mem_filter, Finset.mem_univ, true_and, Finset.mem_map]
    constructor
    · intro hi
      refine ⟨(i 0, i 1), ?_⟩
      have h2 : (i 2).val = h.val := by
        have := hr.drop_apply_val_of_eq i 0 2
        rw [hi] at this
        exact this.symm
      show ix3 (i 0) (i 1) h = i
      funext a
      match a with
      | ⟨0, _⟩ => rfl
      | ⟨1, _⟩ => rfl
      | ⟨2, _⟩ => exact Fin.ext h2.symm
    · rintro ⟨q, rfl⟩
      funext b
      match b with
      | ⟨0, _⟩ => exact Fin.ext (hr.drop_apply_val_of_eq _ 0 2)
  rw [hset, Finset.sum_map, Fintype.sum_prod_type]
  rfl

/-! ## The normalised array -/

/-- The result at `(b, n, h)`: the entry normalised with channel `h`'s sums over all 32768 rows of the flattened input. -/
def norm3At (x3 : T3.Idx → EReal) (g bt : C1.Idx → EReal) (b : Fin 64) (n : Fin 512) (h : Fin 512) : EReal :=
  outAt (x3 (ix3 b n h)) (rowSum (flat x3) h) (rowSum (sq (flat x3)) h) (g (ix1 h)) (bt (ix1 h))

/-- The normalised [64, 512, 512] array. -/
def norm3 (x3 : T3.Idx → EReal) (g bt : C1.Idx → EReal) : T3.Idx → EReal :=
  fun i => norm3At x3 g bt ⟨(i 0).val, (i 0).isLt⟩ ⟨(i 1).val, (i 1).isLt⟩ ⟨(i 2).val, (i 2).isLt⟩

theorem norm3_ix3 (x3 : T3.Idx → EReal) (g bt : C1.Idx → EReal) (b : Fin 64) (n : Fin 512) (h : Fin 512) :
    norm3 x3 g bt (ix3 b n h) = norm3At x3 g bt b n h := rfl

end Cert.BatchNorm

end
-- ==== Proof.KernelValue.lean ====
/-
  What the kernel's program leaves in its result array, at the extended reals: the normalised array `norm3` of its
  three arguments. The program flattens the input to [32768, 512], runs the statistics pass (two groups of two tiles of
  8192 rows: partial sums per group and sublane), views the two [2, 8, 512] arrays of partial sums as [16, 512], runs
  the normalising pass (which adds the sixteen partial sums of each channel and normalises every entry), and
  un-flattens. The sixteen partial sums of a channel add up to the channel's sum over all rows (`sum_blockSum`), so
  each entry is normalised with the statistics of its whole column.
-/
import proofs.«138052_g2000204283482131_pallaspilot1_46_6_alg».proof.Proof.KernelRun
import proofs.«138052_g2000204283482131_pallaspilot1_46_6_alg».proof.Proof.KernelStats
import proofs.«138052_g2000204283482131_pallaspilot1_46_6_alg».proof.Proof.KernelApply
import proofs.«138052_g2000204283482131_pallaspilot1_46_6_alg».proof.Proof.Layout
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)
open Idealize.ShloMosaic.StableHlo
open Cert.BatchNorm

namespace Cert.KernelIdeal.ResultValue

open Cert.KernelIdeal Cert.KernelIdeal.Gen

variable (m : (ℓ : Loc nD τ sig) → Buf (Elt Ideal) ℓ) (ρ : Dev nD → PrngReg)

/-- The three arguments as launched. -/
abbrev x3 (c : Dev nD) : T3.Idx → EReal := m ((c : Thread nD τ).loc main_arg0)
abbrev gam (c : Dev nD) : C1.Idx → EReal := m ((c : Thread nD τ).loc main_arg1)
abbrev bet (c : Dev nD) : C1.Idx → EReal := m ((c : Thread nD τ).loc main_arg2)

/-- The statistics pass finds the flattened input. -/
theorem V1_v0 (c : Dev nD) : (V1 m ρ c main_v0 : S32768x512.Idx → EReal) = flat (x3 m c) := by
  show StableHlo.after hostOps0 (W0 m ρ c) (Proc.devRef .tc main_v0) = _
  after_results
  exact shapeCast_flat _ _

/-- So does the normalising pass: neither the statistics pass nor the re-layouts between the passes write it. -/
theorem V3_v0 (c : Dev nD) : (V3 m ρ c main_v0 : S32768x512.Idx → EReal) = flat (x3 m c) := by
  show StableHlo.after hostOps1 (W2 m ρ c) (Proc.devRef .tc main_v0) = _
  after_results
  refine (W2_arr m ρ c (0 : Fin 3)).trans ?_
  refine ((dat0 (V1 m ρ) c).arrAt_in 0 rfl _).trans ?_
  exact (A_eq0 (V1 m ρ) c 0).trans (V1_v0 m ρ c)

/-- The first array of partial sums, as the normalising pass finds it: row `q` is the partial sum of group `q / 8`,
    sublane `q % 8`. -/
theorem V3_v4 (c : Dev nD) (q : Fin 16) (h : Fin 512) :
    (V3 m ρ c main_v4 : S16x512.Idx → EReal) (ix2 q h)
      = blockSum 2 1024 (colOf (flat (x3 m c)) h) (q.val / 8) (q.val % 8) := by
  have e : (V3 m ρ c main_v4 : S16x512.Idx → EReal)
      = shapeCast S16x512 ((dat0 (F := Ideal) (V1 m ρ) c).arrAt 1 cfg0.N : S2x8x512.Idx → EReal) shapeCasts_S2x8x512_S16x512 := by
    show StableHlo.after hostOps1 (W2 m ρ c) (Proc.devRef .tc main_v4) = _
    after_results
    exact congrArg (fun z => shapeCast S16x512 z shapeCasts_S2x8x512_S16x512) (W2_arr m ρ c (1 : Fin 3))
  rw [e, shapeCast_rows16, StatsValue.final_sum]
  unfold StatsValue.xarr
  rw [V1_v0]

/-- The second, of the squares. -/
theorem V3_v5 (c : Dev nD) (q : Fin 16) (h : Fin 512) :
    (V3 m ρ c main_v5 : S16x512.Idx → EReal) (ix2 q h)
      = blockSum 2 1024 (colOf (sq (flat (x3 m c))) h) (q.val / 8) (q.val % 8) := by
  have e : (V3 m ρ c main_v5 : S16x512.Idx → EReal)
      = shapeCast S16x512 ((dat0 (F := Ideal) (V1 m ρ) c).arrAt 2 cfg0.N : S2x8x512.Idx → EReal) shapeCasts_S2x8x512_S16x512 := by
    show StableHlo.after hostOps1 (W2 m ρ c) (Proc.devRef .tc main_v5) = _
    after_results
    exact congrArg (fun z => shapeCast S16x512 z shapeCasts_S2x8x512_S16x512) (W2_arr m ρ c (2 : Fin 3))
  rw [e, shapeCast_rows16, StatsValue.final_sq]
  unfold StatsValue.xarr
  rw [V1_v0]

/-- The multipliers `γ` as one row. -/
theorem V3_v1 (c : Dev nD) (h : Fin 512) : (V3 m ρ c main_v1 : S1x512.Idx → EReal) (ix2 0 h) = gam m c (ix1 h) := by
  have e : (V3 m ρ c main_v1 : S1x512.Idx → EReal) = shapeCast S1x512 (gam m c) shapeCasts_S512_S1x512 := by
    show StableHlo.after hostOps1 (W2 m ρ c) (Proc.devRef .tc main_v1) = _
    after_results
    rw [W2_of_ne m ρ c main_v1 (by decide)]
    show StableHlo.after hostOps0 (W0 m ρ c) (Proc.devRef .tc main_v1) = _
    after_results
    rfl
  rw [e]
  exact shapeCast_a_1a_apply _ _ 0 h

/-- The offsets `β` as one row. -/
theorem V3_v2 (c : Dev nD) (h : Fin 512) : (V3 m ρ c main_v2 : S1x512.Idx → EReal) (ix2 0 h) = bet m c (ix1 h) := by
  have e : (V3 m ρ c main_v2 : S1x512.Idx → EReal) = shapeCast S1x512 (bet m c) shapeCasts_S512_S1x512 := by
    show StableHlo.after hostOps1 (W2 m ρ c) (Proc.devRef .tc main_v2) = _
    after_results
    rw [W2_of_ne m ρ c main_v2 (by decide)]
    show StableHlo.after hostOps0 (W0 m ρ c) (Proc.devRef .tc main_v2) = _
    after_results
    rfl
  rw [e]
  exact shapeCast_a_1a_apply _ _ 0 h

/-- The result array after the program: the normalised array of the arguments. -/
theorem result_eq (c : Dev nD) :
    (W5 m ρ c (Proc.devRef .tc main_v7) : S64x512x512.Idx → EReal) = norm3 (x3 m c) (gam m c) (bet m c) := by
  have e : (W5 m ρ c (Proc.devRef .tc main_v7) : S64x512x512.Idx → EReal)
      = shapeCast S64x512x512 ((dat1 (F := Ideal) (V3 m ρ) c).arrAt 5 cfg1.N : S32768x512.Idx → EReal)
          shapeCasts_S32768x512_S64x512x512 := by
    show StableHlo.after hostOps2 (W4 m ρ c) (Proc.devRef .tc main_v7) = _
    after_results
    exact congrArg (fun z => shapeCast S64x512x512 z shapeCasts_S32768x512_S64x512x512) (W4_arr m ρ c (5 : Fin 6))
  funext i
  obtain ⟨b, n, h, rfl⟩ : ∃ (b : Fin 64) (n : Fin 512) (h : Fin 512), i = ix3 b n h := ⟨i 0, i 1, i 2, eq_ix3 i⟩
  rw [norm3_ix3, e, shapeCast_unflat, ApplyValue.final_out]
  unfold norm3At
  rw [V3_v0, flat_ix2, flatAt_mk, V3_v1, V3_v2]
  have h4 : ((∑ q : Fin 16, (V3 m ρ c main_v4 : S16x512.Idx → EReal) (ix2 q h)) : EReal) = rowSum (flat (x3 m c)) h :=
    Eq.trans (Finset.sum_congr rfl fun q _ => V3_v4 m ρ c q h)
      ((sum16 (fun j s => blockSum 2 1024 (colOf (flat (x3 m c)) h) j s)).trans (sum_blockSum 2 2 1024 32768 rfl _))
  have h5 : ((∑ q : Fin 16, (V3 m ρ c main_v5 : S16x512.Idx → EReal) (ix2 q h)) : EReal) = rowSum (sq (flat (x3 m c))) h :=
    Eq.trans (Finset.sum_congr rfl fun q _ => V3_v5 m ρ c q h)
      ((sum16 (fun j s => blockSum 2 1024 (colOf (sq (flat (x3 m c))) h) j s)).trans (sum_blockSum 2 2 1024 32768 rfl _))
  rw [h4, h5]

/-- The run, read: the result array at the normalised array, the arguments unchanged. -/
theorem run : θ_run defs (onTc (τ := τ) (main (F := Ideal))) ⟨m, fun _ => 0, ρ⟩ (fun r => ∀ c : Dev nD,
      r.2.mem ((c.tc : Thread nD τ).loc main_v7) = norm3 (x3 m c) (gam m c) (bet m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m ρ c), (h c).2⟩) (RunValue.run m ρ)

end Cert.KernelIdeal.ResultValue

end
-- ==== Proof.ReferenceStats.lean ====
/-
  The statistics pass of the batch normalisation, read as sums.

  The pass walks the 32 tiles of 1024 rows of the [32768, 512] matrix `x` in order; tile `t` belongs to group `j = t / 16`
  and is the `k`-th of its group, `k = t % 16`. A tile is read as 128 slabs of 8 rows (row `a·8 + s` of the tile is slab `a`,
  sublane `s`), and the pass adds into a running [8, 512] block, for each sublane `s` and channel `h`, the tile's 128
  entries on that sublane, `∑ a < 128, x[t·1024 + a·8 + s, h]`, and into a second block the same sum of the squares. Both
  blocks restart from zero at the first tile of a group and are stored, after the group's last tile, as block `j` of the two
  [2, 8, 512] results.

  So after tile `n` the first block holds at `(s, h)` the sum, over the tiles `n - n % 16 … n`, of their sublane sums (by
  induction on `n`: a restart leaves `0 +` the tile's sum, every other tile adds its sum to what the tile before left); after
  the last tile of group `j` that is `∑ k < 16, ∑ a < 128, x[(j·16 + k)·1024 + a·8 + s, h]`, the specification's partial sum
  `blockSum 16 128`; likewise for the squares. Group `j`'s block is written once, at tile `j·16 + 15`, to row `j` of each
  result, where the two theorems read it.
-/
import proofs.«138052_g2000204283482131_pallaspilot1_46_6_alg».proof.Proof.Gen.ReferenceIdeal.Frame
import proofs.«138052_g2000204283482131_pallaspilot1_46_6_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open Cert.BatchNorm

namespace Cert.ReferenceIdeal.StatsValue

open Cert.ReferenceIdeal Cert.ReferenceIdeal.Gen

/-! ## What one point leaves in the two buffers -/

section Pieces
variable {F : FTy → Type} [FloatOps F]

/-- The zero offsets, spelt either way. -/
private theorem hz3 : (![0, 0, 0] : Fin 3 → Nat) = fun _ => 0 := funext fun a => by fin_cases a <;> rfl
private theorem hz2 : (![0, 0] : Fin 2 → Nat) = fun _ => 0 := funext fun a => by fin_cases a <;> rfl

/-- Away from a group's first point the first buffer is left at the running-sum payload of the point's block and of what
    the buffer held. -/
private theorem outB1 (c : Dev nD) (i : grid0.Coords) (a2 : Memref sig .tc .vmem S1024x512 .f32) (h2 : a2.IsWhole)
    (a3 : Memref sig .tc .vmem S1x8x512 .f32) (h3 : a3.IsWhole) (a4 : Memref sig .tc .vmem S1x8x512 .f32) (h4 : a4.IsWhole)
    (hc : ¬cond0_0 i) (x0 : Vec F S1024x512 .f32) (xo1 xo2 : Vec F S1x8x512 .f32) :
    out0_B_1 c i a2 h2 a3 h3 a4 h4 hc x0 xo1 xo2 = k0_pay4 x0 xo1 := by
  unfold out0_B_1
  rw [View.read_writes_eq_canon _ _ _ (cover0_B_1 c i a2 h2 a3 h3 a4 h4 hc x0 xo1 xo2)]
  unfold kernelRun0_B
  dsimp only
  sl_unfold_words
  rw [View.canon_unit_zero hz3]
  simp only [View.readAt_eq_ld, h2.read_unread, h3.read_unread, View.ld_unit_zero (S := S1024x512) hz2,
    View.ld_unit_zero (S := S1x8x512) hz3]

/-- … and the second at the running sum of squares, likewise. -/
private theorem outB2 (c : Dev nD) (i : grid0.Coords) (a2 : Memref sig .tc .vmem S1024x512 .f32) (h2 : a2.IsWhole)
    (a3 : Memref sig .tc .vmem S1x8x512 .f32) (h3 : a3.IsWhole) (a4 : Memref sig .tc .vmem S1x8x512 .f32) (h4 : a4.IsWhole)
    (hc : ¬cond0_0 i) (x0 : Vec F S1024x512 .f32) (xo1 xo2 : Vec F S1x8x512 .f32) :
    out0_B_2 c i a2 h2 a3 h3 a4 h4 hc x0 xo1 xo2 = k0_pay5 x0 xo2 := by
  unfold out0_B_2
  rw [View.read_writes_eq_canon _ _ _ (cover0_B_2 c i a2 h2 a3 h3 a4 h4 hc x0 xo1 xo2)]
  unfold kernelRun0_B
  dsimp only
  sl_unfold_words
  rw [View.canon_unit_zero hz3]
  simp only [View.readAt_eq_ld, h2.read_unread, h4.read_unread, View.ld_unit_zero (S := S1024x512) hz2,
    View.ld_unit_zero (S := S1x8x512) hz3]

/-- At a group's first point the first buffer is reset, then left at the running-sum payload of the point's block and of
    the reset value. -/
private theorem outA1 (c : Dev nD) (i : grid0.Coords) (a2 : Memref sig .tc .vmem S1024x512 .f32) (h2 : a2.IsWhole)
    (a3 : Memref sig .tc .vmem S1x8x512 .f32) (h3 : a3.IsWhole) (a4 : Memref sig .tc .vmem S1x8x512 .f32) (h4 : a4.IsWhole)
    (hc : cond0_0 i) (x0 : Vec F S1024x512 .f32) :
    out0_A_1 c i a2 h2 a3 h3 a4 h4 hc x0 = k0_pay4 x0 k0_pay1 := by
  unfold out0_A_1
  rw [View.read_writes_eq_canon _ _ _ (cover0_A_1 c i a2 h2 a3 h3 a4 h4 hc x0)]
  unfold kernelRun0_A
  dsimp only
  sl_unfold_words
  rw [View.canon_cons_unit_zero (S := S1x8x512) hz3, View.readCov_unit_zero (S := S1x8x512) _ hz3]
  simp only [View.readAt_eq_ld, h2.read_unread, View.ld_unit_zero (S := S1024x512) hz2]

/-- … and the second likewise. -/
private theorem outA2 (c : Dev nD) (i : grid0.Coords) (a2 : Memref sig .tc .vmem S1024x512 .f32) (h2 : a2.IsWhole)
    (a3 : Memref sig .tc .vmem S1x8x512 .f32) (h3 : a3.IsWhole) (a4 : Memref sig .tc .vmem S1x8x512 .f32) (h4 : a4.IsWhole)
    (hc : cond0_0 i) (x0 : Vec F S1024x512 .f32) :
    out0_A_2 c i a2 h2 a3 h3 a4 h4 hc x0 = k0_pay5 x0 k0_pay2 := by
  unfold out0_A_2
  rw [View.read_writes_eq_canon _ _ _ (cover0_A_2 c i a2 h2 a3 h3 a4 h4 hc x0)]
  unfold kernelRun0_A
  dsimp only
  sl_unfold_words
  rw [View.canon_cons_unit_zero (S := S1x8x512) hz3, View.readCov_unit_zero (S := S1x8x512) _ hz3]
  simp only [View.readAt_eq_ld, h2.read_unread, View.ld_unit_zero (S := S1024x512) hz2]
end Pieces

/-! ## The payloads read at an index -/

/-- The block in sublane form: element (a, s, h) of the [128, 8, 512] view is row a·8 + s of the block. -/
private theorem pay3_apply (x0 : Vec Ideal S1024x512 .f32) (a : Fin 128) (s : Fin 8) (h : Fin 512) :
    (k0_pay3 x0 : S128x8x512.Idx → EReal) (ix3 a s h) = x0 (ix2 ⟨a.val * 8 + s.val, by omega⟩ h) := by
  unfold k0_pay3
  refine (shapeCast_apply _ _ (ix3 a s h) (ix2 ⟨a.val * 8 + s.val, by omega⟩ h) ?_).trans ?_
  · rw [Shape.rowMajor_val_two, Shape.rowMajor_val_three]
    show (a.val * 8 + s.val) * 512 + h.val = (a.val * 8 + s.val) * 512 + h.val
    rfl
  · rw [shapeCast_self]

/-- The index (s, h) of the reduced block with the slab coordinate `a` put back is (a, s, h). -/
private theorem lift_eq (j : S8x512.Idx) (a : Fin 128) :
    reduces_S128x8x512_S8x512.lift j a = ix3 a (j 0) (j 1) := by
  funext d
  match d with
  | ⟨0, _⟩ => rfl
  | ⟨1, _⟩ => rfl
  | ⟨2, _⟩ => rfl

/-- The running-sum payload at (0, s, h): what was there plus the block's rows on sublane s. -/
private theorem pay4_apply (x0 : Vec Ideal S1024x512 .f32) (xo : Vec Ideal S1x8x512 .f32) (s : Fin 8) (h : Fin 512) :
    (k0_pay4 x0 xo : S1x8x512.Idx → EReal) (ix3 (0 : Fin 1) s h)
      = xo (ix3 (0 : Fin 1) s h) + ∑ a : Fin 128, x0 (ix2 ⟨a.val * 8 + s.val, by omega⟩ h) := by
  unfold k0_pay4
  dsimp only
  refine (shapeCast_ab_1ab_apply _ _ (0 : Fin 1) s h).trans ?_
  refine (addf_apply _ _ _).trans ?_
  refine congrArg₂ (· + ·) (shapeCast_1ab_ab_apply xo _ s h) ?_
  refine (Ideal.multiReduction_add_single (k0_pay3 x0) 0x00000000#32 reduces_S128x8x512_S8x512 (.inl rfl) rfl (ix2 s h)).trans ?_
  refine Finset.sum_congr rfl fun a _ => ?_
  exact (congrArg (k0_pay3 x0) (lift_eq (ix2 s h) a)).trans (pay3_apply x0 a s h)

/-- The running sum of squares at (0, s, h). -/
private theorem pay5_apply (x0 : Vec Ideal S1024x512 .f32) (xo : Vec Ideal S1x8x512 .f32) (s : Fin 8) (h : Fin 512) :
    (k0_pay5 x0 xo : S1x8x512.Idx → EReal) (ix3 (0 : Fin 1) s h)
      = xo (ix3 (0 : Fin 1) s h)
        + ∑ a : Fin 128, x0 (ix2 ⟨a.val * 8 + s.val, by omega⟩ h) * x0 (ix2 ⟨a.val * 8 + s.val, by omega⟩ h) := by
  unfold k0_pay5
  dsimp only
  refine (shapeCast_ab_1ab_apply _ _ (0 : Fin 1) s h).trans ?_
  refine (addf_apply _ _ _).trans ?_
  refine congrArg₂ (· + ·) (shapeCast_1ab_ab_apply xo _ s h) ?_
  refine (Ideal.multiReduction_add_single (mulf (k0_pay3 x0) (k0_pay3 x0)) 0x00000000#32 reduces_S128x8x512_S8x512 (.inl rfl) rfl (ix2 s h)).trans ?_
  refine Finset.sum_congr rfl fun a _ => ?_
  refine (mulf_apply _ _ _).trans ?_
  have e := (congrArg (k0_pay3 x0) (lift_eq (ix2 s h) a)).trans (pay3_apply x0 a s h)
  exact congrArg₂ (· * ·) e e

/-- The reset stores zero. -/
private theorem pay1_apply (s : Fin 8) (h : Fin 512) : (k0_pay1 (F := Ideal) : S1x8x512.Idx → EReal) (ix3 (0 : Fin 1) s h) = 0 := by
  unfold k0_pay1
  refine (shapeCast_ab_1ab_apply _ _ (0 : Fin 1) s h).trans ?_
  exact Ideal.ofBits_zero_f32

/-- … in both buffers. -/
private theorem pay2_apply (s : Fin 8) (h : Fin 512) : (k0_pay2 (F := Ideal) : S1x8x512.Idx → EReal) (ix3 (0 : Fin 1) s h) = 0 := by
  unfold k0_pay2
  refine (shapeCast_ab_1ab_apply _ _ (0 : Fin 1) s h).trans ?_
  exact Ideal.ofBits_zero_f32

/-! ## Running sums over the grid -/

/-- The rows of tile `n` that sit on sublane `s`: every eighth of its 128·8 rows. -/
private def tileSum (g : ℕ → EReal) (s n : ℕ) : EReal := ∑ a : Fin 128, g (n * (128 * 8) + (a.val * 8 + s))

/-- A quantity that restarts from zero at the multiples of 16 and at every other point adds that point's term to what the
    point before left is, at point `n`, the sum of the terms since the last multiple of 16. -/
private theorem run_sum {N : ℕ} (f : (n : ℕ) → n < N → EReal) (M : ℕ → EReal)
    (hA : ∀ (n : ℕ) (hn : n < N), n % 16 = 0 → f n hn = 0 + M n)
    (hB : ∀ (n : ℕ) (hn : n + 1 < N), ¬(n + 1) % 16 = 0 → f (n + 1) hn = f n (Nat.lt_of_succ_lt hn) + M (n + 1)) :
    ∀ (n : ℕ) (hn : n < N), f n hn = ∑ k ∈ Finset.range (n % 16 + 1), M (n / 16 * 16 + k)
  | 0, hn => by
    show f 0 hn = ∑ k ∈ Finset.range 1, M (0 / 16 * 16 + k)
    rw [Finset.sum_range_one, hA 0 hn rfl, zero_add]
  | n + 1, hn => by
    by_cases h0 : (n + 1) % 16 = 0
    · have e1 : (n + 1) % 16 + 1 = 1 := by omega
      have e2 : (n + 1) / 16 * 16 + 0 = n + 1 := by omega
      rw [hA (n + 1) hn h0, e1, Finset.sum_range_one, e2, zero_add]
    · have e1 : (n + 1) / 16 = n / 16 := by omega
      have e2 : (n + 1) % 16 + 1 = n % 16 + 1 + 1 := by omega
      have e3 : n / 16 * 16 + (n % 16 + 1) = n + 1 := by omega
      rw [hB n hn h0, run_sum f M hA hB n (Nat.lt_of_succ_lt hn), e1, e2, Finset.sum_range_succ _ (n % 16 + 1), e3]

/-- At the last point of a group the running sum is the group's partial sum. -/
private theorem range_sum_eq_blockSum (g : ℕ → EReal) (s n : ℕ) (h15 : n % 16 = 15) :
    ∑ k ∈ Finset.range (n % 16 + 1), tileSum g s (n / 16 * 16 + k) = blockSum 16 128 g (n / 16) s := by
  rw [h15, Finset.sum_range]
  rfl

variable (V : (c : Dev nD) → (b : Ref sig .tc) → Buf (Elt Ideal) ((c : Thread nD τ).loc b))

/-- The [32768, 512] matrix as the statistics pass finds it. -/
abbrev xarr (c : Dev nD) : S32768x512.Idx → EReal := V c main_v0

/-! ## The blocks -/

/-- The block indices over the grid: the matrix's block moves with the point, a result's with the point's group. -/
private theorem idx_facts : ∀ t : Fin cfg0.N, win0_0.index t (0 : Fin 2) = t.val ∧ win0_0.index t (1 : Fin 2) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0 :=
  (by decide +kernel : ∀ t : Fin grid0.N, _)

/-- Row `ρ` of the block at point `t` is row `t·1024 + ρ` of the matrix. -/
private theorem xblk_apply (c : Dev nD) (t : Fin cfg0.N) (ρ : Fin 1024) (h : Fin 512) :
    (iblk0 V c 0 t : S1024x512.Idx → EReal) (ix2 ρ h) = colOf (xarr V c) h (t.val * (128 * 8) + ρ.val) := by
  have hN : t.val < 32 := lt_of_lt_of_eq t.isLt (show cfg0.N = 32 from N_0)
  have hr : t.val * (128 * 8) + ρ.val < 32768 := by omega
  obtain ⟨e0, e1, -⟩ := idx_facts t
  unfold colOf
  rw [dif_pos hr]
  unfold iblk0
  rw [View.read_apply]
  show V c main_v0 _ = V c main_v0 _
  congr 1
  funext a
  apply Fin.ext
  match a with
  | ⟨0, _⟩ => show win0_0.index t (0 : Fin 2) * 1024 + 1 * ρ.val = t.val * (128 * 8) + ρ.val; rw [e0]; omega
  | ⟨1, _⟩ => show win0_0.index t (1 : Fin 2) * 512 + 1 * h.val = h.val; rw [e1]; omega

/-! ## What the two buffers hold after each point -/

/-- At the first point of a group the first buffer is left at zero plus the point's tile. -/
private theorem stepA1 (c : Dev nD) (t : Fin cfg0.N) (h0 : t.val % 16 = 0) (s : Fin 8) (h : Fin 512) :
    ((outsAt0 V c t.val t.isLt).1 : S1x8x512.Idx → EReal) (ix3 (0 : Fin 1) s h)
      = 0 + tileSum (colOf (xarr V c) h) s.val t.val := by
  rw [outsAt0_A V c t h0]
  dsimp only
  refine (congrFun (outA1 (F := Ideal) c (grid0.coords t) (ms0_0 t) (hs0_0 t) (ms0_1 t) (hs0_1 t) (ms0_2 t) (hs0_2 t)
    ((hcond0_0 t).mpr h0) (iblk0 V c 0 t)) (ix3 (0 : Fin 1) s h)).trans ?_
  refine (pay4_apply (iblk0 V c 0 t) (k0_pay1 (F := Ideal)) s h).trans ?_
  refine congrArg₂ (· + ·) (pay1_apply s h) ?_
  exact Finset.sum_congr rfl fun a _ => xblk_apply V c t ⟨a.val * 8 + s.val, by omega⟩ h

/-- At every other point it is left at what the point before left plus the point's tile. -/
private theorem stepB1 (c : Dev nD) (t : Fin cfg0.N) (h0 : ¬t.val % 16 = 0) (s : Fin 8) (h : Fin 512) :
    ((outsAt0 V c t.val t.isLt).1 : S1x8x512.Idx → EReal) (ix3 (0 : Fin 1) s h)
      = ((outsAt0 V c (t.val - 1) (Nat.lt_of_le_of_lt (Nat.sub_le _ _) t.isLt)).1 : S1x8x512.Idx → EReal) (ix3 (0 : Fin 1) s h)
        + tileSum (colOf (xarr V c) h) s.val t.val := by
  rw [outsAt0_B V c t h0]
  dsimp only
  refine (congrFun (outB1 (F := Ideal) c (grid0.coords t) (ms0_0 t) (hs0_0 t) (ms0_1 t) (hs0_1 t) (ms0_2 t) (hs0_2 t)
    (fun hh => h0 ((hcond0_0 t).mp hh)) (iblk0 V c 0 t)
    (outsAt0 V c (t.val - 1) (Nat.lt_of_le_of_lt (Nat.sub_le _ _) t.isLt)).1
    (outsAt0 V c (t.val - 1) (Nat.lt_of_le_of_lt (Nat.sub_le _ _) t.isLt)).2) (ix3 (0 : Fin 1) s h)).trans ?_
  refine (pay4_apply (iblk0 V c 0 t) (outsAt0 V c (t.val - 1) (Nat.lt_of_le_of_lt (Nat.sub_le _ _) t.isLt)).1 s h).trans ?_
  refine congrArg₂ (· + ·) rfl ?_
  exact Finset.sum_congr rfl fun a _ => xblk_apply V c t ⟨a.val * 8 + s.val, by omega⟩ h

/-- After point `n` the first buffer holds the sum of the tiles of the group's points so far. -/
private theorem sum1_at (c : Dev nD) (s : Fin 8) (h : Fin 512) (n : ℕ) (hn : n < cfg0.N) :
    ((outsAt0 V c n hn).1 : S1x8x512.Idx → EReal) (ix3 (0 : Fin 1) s h)
      = ∑ k ∈ Finset.range (n % 16 + 1), tileSum (colOf (xarr V c) h) s.val (n / 16 * 16 + k) :=
  run_sum (fun n hn => ((outsAt0 V c n hn).1 : S1x8x512.Idx → EReal) (ix3 (0 : Fin 1) s h))
    (tileSum (colOf (xarr V c) h) s.val)
    (fun n hn h0 => stepA1 V c ⟨n, hn⟩ h0 s h) (fun n hn h0 => stepB1 V c ⟨n + 1, hn⟩ h0 s h) n hn

/-- The block of the matrix that point `t` reads. -/
private abbrev xblk (c : Dev nD) (t : Fin cfg0.N) : S1024x512.Idx → EReal := iblk0 V c 0 t

/-- The square of an entry of the block is the entry of the squared matrix. -/
private theorem xblk_sq_apply (c : Dev nD) (t : Fin cfg0.N) (ρ : Fin 1024) (h : Fin 512) :
    xblk V c t (ix2 ρ h) * xblk V c t (ix2 ρ h) = colOf (sq (xarr V c)) h (t.val * (128 * 8) + ρ.val) := by
  have hN : t.val < 32 := lt_of_lt_of_eq t.isLt (show cfg0.N = 32 from N_0)
  have hr : t.val * (128 * 8) + ρ.val < 32768 := by omega
  rw [show xblk V c t (ix2 ρ h) = colOf (xarr V c) h (t.val * (128 * 8) + ρ.val) from xblk_apply V c t ρ h]
  unfold colOf Cert.BatchNorm.sq
  simp only [dif_pos hr]

/-- At the first point of a group the second buffer is left at zero plus the point's tile of squares. -/
private theorem stepA2 (c : Dev nD) (t : Fin cfg0.N) (h0 : t.val % 16 = 0) (s : Fin 8) (h : Fin 512) :
    ((outsAt0 V c t.val t.isLt).2 : S1x8x512.Idx → EReal) (ix3 (0 : Fin 1) s h)
      = 0 + tileSum (colOf (sq (xarr V c)) h) s.val t.val := by
  rw [outsAt0_A V c t h0]
  dsimp only
  refine (congrFun (outA2 (F := Ideal) c (grid0.coords t) (ms0_0 t) (hs0_0 t) (ms0_1 t) (hs0_1 t) (ms0_2 t) (hs0_2 t)
    ((hcond0_0 t).mpr h0) (iblk0 V c 0 t)) (ix3 (0 : Fin 1) s h)).trans ?_
  refine (pay5_apply (iblk0 V c 0 t) (k0_pay2 (F := Ideal)) s h).trans ?_
  refine congrArg₂ (· + ·) (pay2_apply s h) ?_
  exact Finset.sum_congr rfl fun a _ => xblk_sq_apply V c t ⟨a.val * 8 + s.val, by omega⟩ h

/-- At every other point it is left at what the point before left plus the point's tile of squares. -/
private theorem stepB2 (c : Dev nD) (t : Fin cfg0.N) (h0 : ¬t.val % 16 = 0) (s : Fin 8) (h : Fin 512) :
    ((outsAt0 V c t.val t.isLt).2 : S1x8x512.Idx → EReal) (ix3 (0 : Fin 1) s h)
      = ((outsAt0 V c (t.val - 1) (Nat.lt_of_le_of_lt (Nat.sub_le _ _) t.isLt)).2 : S1x8x512.Idx → EReal) (ix3 (0 : Fin 1) s h)
        + tileSum (colOf (sq (xarr V c)) h) s.val t.val := by
  rw [outsAt0_B V c t h0]
  dsimp only
  refine (congrFun (outB2 (F := Ideal) c (grid0.coords t) (ms0_0 t) (hs0_0 t) (ms0_1 t) (hs0_1 t) (ms0_2 t) (hs0_2 t)
    (fun hh => h0 ((hcond0_0 t).mp hh)) (iblk0 V c 0 t)
    (outsAt0 V c (t.val - 1) (Nat.lt_of_le_of_lt (Nat.sub_le _ _) t.isLt)).1
    (outsAt0 V c (t.val - 1) (Nat.lt_of_le_of_lt (Nat.sub_le _ _) t.isLt)).2) (ix3 (0 : Fin 1) s h)).trans ?_
  refine (pay5_apply (iblk0 V c 0 t) (outsAt0 V c (t.val - 1) (Nat.lt_of_le_of_lt (Nat.sub_le _ _) t.isLt)).2 s h).trans ?_
  refine congrArg₂ (· + ·) rfl ?_
  exact Finset.sum_congr rfl fun a _ => xblk_sq_apply V c t ⟨a.val * 8 + s.val, by omega⟩ h

/-- After point `n` the second buffer holds the sum of the tiles of squares of the group's points so far. -/
private theorem sum2_at (c : Dev nD) (s : Fin 8) (h : Fin 512) (n : ℕ) (hn : n < cfg0.N) :
    ((outsAt0 V c n hn).2 : S1x8x512.Idx → EReal) (ix3 (0 : Fin 1) s h)
      = ∑ k ∈ Finset.range (n % 16 + 1), tileSum (colOf (sq (xarr V c)) h) s.val (n / 16 * 16 + k) :=
  run_sum (fun n hn => ((outsAt0 V c n hn).2 : S1x8x512.Idx → EReal) (ix3 (0 : Fin 1) s h))
    (tileSum (colOf (sq (xarr V c)) h) s.val)
    (fun n hn h0 => stepA2 V c ⟨n, hn⟩ h0 s h) (fun n hn h0 => stepB2 V c ⟨n + 1, hn⟩ h0 s h) n hn

/-! ## The result arrays -/

/-- The first result array: at (j, s, h) the partial sum of column `h` over group `j` on sublane `s`. -/
private abbrev sums (c : Dev nD) : S2x8x512.Idx → EReal :=
  fun i => blockSum 16 128 (colOf (xarr V c) (i 2)) (i 0).val (i 1).val

/-- The second: the same partial sum of the squares. -/
private abbrev sqSums (c : Dev nD) : S2x8x512.Idx → EReal :=
  fun i => blockSum 16 128 (colOf (sq (xarr V c)) (i 2)) (i 0).val (i 1).val

/-- The last point of a group writes the group's block of partial sums back. -/
private theorem flushed1_eq (c : Dev nD) (t : Fin cfg0.N) (hf : (cfg0.win 1).flush t = true) :
    (dat0 (F := Ideal) V c).flushed 1 t = ((cfg0.win 1).blk t).view.read (Elt Ideal) (sums V c) := by
  have h15 : t.val % 16 = 15 := (flush0_1 t).mp hf
  have hN : t.val < 32 := lt_of_lt_of_eq t.isLt (show cfg0.N = 32 from N_0)
  obtain ⟨-, -, e0, e1, e2, -⟩ := idx_facts t
  show (cfg0.win 1).cut (grid0.coords t) ((dat0 (F := Ideal) V c).after 1 t) = _
  rw [after0_1]
  funext y
  have hy0 : (y 0).val < 1 := (y 0).isLt
  have hy1 : (y 1).val < 8 := (y 1).isLt
  have hy2 : (y 2).val < 512 := (y 2).isLt
  rw [View.read_apply]
  have ey : (cfg0.win 1).xinj (grid0.coords t) y = (ix3 (0 : Fin 1) ⟨(y 1).val, hy1⟩ ⟨(y 2).val, hy2⟩ : S1x8x512.Idx) := by
    funext a
    apply Fin.ext
    match a with
    | ⟨0, _⟩ => show (y 0).val = 0; omega
    | ⟨1, _⟩ => rfl
    | ⟨2, _⟩ => rfl
  have eb : ((cfg0.win 1).blk t).view.emb y
      = (ix3 (⟨t.val / 16, by omega⟩ : Fin 2) ⟨(y 1).val, hy1⟩ ⟨(y 2).val, hy2⟩ : S2x8x512.Idx) := by
    funext a
    apply Fin.ext
    match a with
    | ⟨0, _⟩ => show win0_1.index t (0 : Fin 3) * 1 + 1 * (y 0).val = t.val / 16; rw [e0]; omega
    | ⟨1, _⟩ => show win0_1.index t (1 : Fin 3) * 8 + 1 * (y 1).val = (y 1).val; rw [e1]; omega
    | ⟨2, _⟩ => show win0_1.index t (2 : Fin 3) * 512 + 1 * (y 2).val = (y 2).val; rw [e2]; omega
  show ((outsAt0 V c t.val t.isLt).1 : S1x8x512.Idx → EReal) ((cfg0.win 1).xinj (grid0.coords t) y)
    = sums V c (((cfg0.win 1).blk t).view.emb y)
  rw [ey, eb]
  exact (sum1_at V c _ _ t.val t.isLt).trans (range_sum_eq_blockSum _ _ _ h15)

/-- … and its block of partial sums of squares. -/
private theorem flushed2_eq (c : Dev nD) (t : Fin cfg0.N) (hf : (cfg0.win 2).flush t = true) :
    (dat0 (F := Ideal) V c).flushed 2 t = ((cfg0.win 2).blk t).view.read (Elt Ideal) (sqSums V c) := by
  have h15 : t.val % 16 = 15 := (flush0_2 t).mp hf
  have hN : t.val < 32 := lt_of_lt_of_eq t.isLt (show cfg0.N = 32 from N_0)
  obtain ⟨-, -, -, -, -, e0, e1, e2⟩ := idx_facts t
  show (cfg0.win 2).cut (grid0.coords t) ((dat0 (F := Ideal) V c).after 2 t) = _
  rw [after0_2]
  funext y
  have hy0 : (y 0).val < 1 := (y 0).isLt
  have hy1 : (y 1).val < 8 := (y 1).isLt
  have hy2 : (y 2).val < 512 := (y 2).isLt
  rw [View.read_apply]
  have ey : (cfg0.win 2).xinj (grid0.coords t) y = (ix3 (0 : Fin 1) ⟨(y 1).val, hy1⟩ ⟨(y 2).val, hy2⟩ : S1x8x512.Idx) := by
    funext a
    apply Fin.ext
    match a with
    | ⟨0, _⟩ => show (y 0).val = 0; omega
    | ⟨1, _⟩ => rfl
    | ⟨2, _⟩ => rfl
  have eb : ((cfg0.win 2).blk t).view.emb y
      = (ix3 (⟨t.val / 16, by omega⟩ : Fin 2) ⟨(y 1).val, hy1⟩ ⟨(y 2).val, hy2⟩ : S2x8x512.Idx) := by
    funext a
    apply Fin.ext
    match a with
    | ⟨0, _⟩ => show win0_2.index t (0 : Fin 3) * 1 + 1 * (y 0).val = t.val / 16; rw [e0]; omega
    | ⟨1, _⟩ => show win0_2.index t (1 : Fin 3) * 8 + 1 * (y 1).val = (y 1).val; rw [e1]; omega
    | ⟨2, _⟩ => show win0_2.index t (2 : Fin 3) * 512 + 1 * (y 2).val = (y 2).val; rw [e2]; omega
  show ((outsAt0 V c t.val t.isLt).2 : S1x8x512.Idx → EReal) ((cfg0.win 2).xinj (grid0.coords t) y)
    = sqSums V c (((cfg0.win 2).blk t).view.emb y)
  rw [ey, eb]
  exact (sum2_at V c _ _ t.val t.isLt).trans (range_sum_eq_blockSum _ _ _ h15)

/-- After the statistics pass its first result array holds, at group `j`, sublane `s`, channel `h`, the partial sum of
    the channel over the group's 16 tiles of 128·8 rows, sublane `s`. -/
theorem final_sum (c : Dev nD) (j : Fin 2) (s : Fin 8) (h : Fin 512) :
    ((dat0 (F := Ideal) V c).arrAt 1 cfg0.N : S2x8x512.Idx → EReal) (ix3 j s h)
      = blockSum 16 128 (colOf (xarr V c) h) j.val s.val := by
  have ht : j.val * 16 + 15 < cfg0.N := by rw [show cfg0.N = 32 from N_0]; omega
  have hf : (cfg0.win 1).flush ⟨j.val * 16 + 15, ht⟩ = true :=
    (flush0_1 ⟨j.val * 16 + 15, ht⟩).mpr (by show (j.val * 16 + 15) % 16 = 15; omega)
  obtain ⟨-, -, e0, e1, e2, -⟩ := idx_facts ⟨j.val * 16 + 15, ht⟩
  have e0' : win0_1.index ⟨j.val * 16 + 15, ht⟩ (0 : Fin 3) = (j.val * 16 + 15) / 16 := e0
  refine ((dat0 (F := Ideal) V c).arrAt_apply_of_mem 1 (sums V c) (flushed1_eq V c) cfg0.N ⟨j.val * 16 + 15, ht⟩
    (ix3 j s h) ht hf ?_).trans rfl
  show ix3 j s h ∈ ((View.whole main_v3_0).slice (win0_1.rect ⟨j.val * 16 + 15, ht⟩)).set
  rw [View.set_slice_whole, Rect.mem_set_unit]
  intro a
  match a with
  | ⟨0, _⟩ =>
    show win0_1.index ⟨j.val * 16 + 15, ht⟩ (0 : Fin 3) * 1 ≤ j.val ∧ j.val < win0_1.index ⟨j.val * 16 + 15, ht⟩ (0 : Fin 3) * 1 + 1
    rw [e0']; omega
  | ⟨1, _⟩ =>
    show win0_1.index ⟨j.val * 16 + 15, ht⟩ (1 : Fin 3) * 8 ≤ s.val ∧ s.val < win0_1.index ⟨j.val * 16 + 15, ht⟩ (1 : Fin 3) * 8 + 8
    rw [e1]; omega
  | ⟨2, _⟩ =>
    show win0_1.index ⟨j.val * 16 + 15, ht⟩ (2 : Fin 3) * 512 ≤ h.val ∧ h.val < win0_1.index ⟨j.val * 16 + 15, ht⟩ (2 : Fin 3) * 512 + 512
    rw [e2]; omega

/-- … and its second the same partial sum of the squares. -/
theorem final_sq (c : Dev nD) (j : Fin 2) (s : Fin 8) (h : Fin 512) :
    ((dat0 (F := Ideal) V c).arrAt 2 cfg0.N : S2x8x512.Idx → EReal) (ix3 j s h)
      = blockSum 16 128 (colOf (sq (xarr V c)) h) j.val s.val := by
  have ht : j.val * 16 + 15 < cfg0.N := by rw [show cfg0.N = 32 from N_0]; omega
  have hf : (cfg0.win 2).flush ⟨j.val * 16 + 15, ht⟩ = true :=
    (flush0_2 ⟨j.val * 16 + 15, ht⟩).mpr (by show (j.val * 16 + 15) % 16 = 15; omega)
  obtain ⟨-, -, -, -, -, e0, e1, e2⟩ := idx_facts ⟨j.val * 16 + 15, ht⟩
  have e0' : win0_2.index ⟨j.val * 16 + 15, ht⟩ (0 : Fin 3) = (j.val * 16 + 15) / 16 := e0
  refine ((dat0 (F := Ideal) V c).arrAt_apply_of_mem 2 (sqSums V c) (flushed2_eq V c) cfg0.N ⟨j.val * 16 + 15, ht⟩
    (ix3 j s h) ht hf ?_).trans rfl
  show ix3 j s h ∈ ((View.whole main_v3_1).slice (win0_2.rect ⟨j.val * 16 + 15, ht⟩)).set
  rw [View.set_slice_whole, Rect.mem_set_unit]
  intro a
  match a with
  | ⟨0, _⟩ =>
    show win0_2.index ⟨j.val * 16 + 15, ht⟩ (0 : Fin 3) * 1 ≤ j.val ∧ j.val < win0_2.index ⟨j.val * 16 + 15, ht⟩ (0 : Fin 3) * 1 + 1
    rw [e0']; omega
  | ⟨1, _⟩ =>
    show win0_2.index ⟨j.val * 16 + 15, ht⟩ (1 : Fin 3) * 8 ≤ s.val ∧ s.val < win0_2.index ⟨j.val * 16 + 15, ht⟩ (1 : Fin 3) * 8 + 8
    rw [e1]; omega
  | ⟨2, _⟩ =>
    show win0_2.index ⟨j.val * 16 + 15, ht⟩ (2 : Fin 3) * 512 ≤ h.val ∧ h.val < win0_2.index ⟨j.val * 16 + 15, ht⟩ (2 : Fin 3) * 512 + 512
    rw [e2]; omega

end Cert.ReferenceIdeal.StatsValue

end
-- ==== Proof.ReferenceApply.lean ====
/-
  The normalising pass of the reference program, read as values.

  The pass walks the [32768, 512] matrix in 32 blocks of 1024 consecutive rows. At block `t` it reads rows
  `1024·t … 1024·t + 1023` of the matrix and the whole [1, 512] rows of per-channel multipliers and per-channel
  offsets, repeats each of the two rows down the block's 1024 rows, and writes `x·scale + shift` entrywise into rows
  `1024·t … 1024·t + 1023` of the result. So the entry `(p, q)` of block `t` of the result is the matrix entry at
  `(1024·t + p, q)` times the multiplier at `(0, q)` plus the offset at `(0, q)`: every block is the restriction to
  its own rows of ONE function of the whole arrays, `(r, h) ↦ x[r, h]·scale[0, h] + shift[0, h]`. Every block is
  written to the result, and row `r` lies in block `r / 1024` (since `1024·(r / 1024) ≤ r < 1024·(r / 1024) + 1024`),
  so after the pass the result holds that function at every `(r, h)`.
-/
import proofs.«138052_g2000204283482131_pallaspilot1_46_6_alg».proof.Proof.Gen.ReferenceIdeal.Frame
import proofs.«138052_g2000204283482131_pallaspilot1_46_6_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open Cert.BatchNorm

namespace Cert.ReferenceIdeal.ApplyValue

open Cert.ReferenceIdeal Cert.ReferenceIdeal.Gen

variable (V : (c : Dev nD) → (b : Ref sig .tc) → Buf (Elt Ideal) ((c : Thread nD τ).loc b))

/-- The matrix, the channels' multipliers and the channels' offsets as the normalising pass finds them. -/
abbrev xarr (c : Dev nD) : S32768x512.Idx → EReal := V c main_v0
abbrev scaleArr (c : Dev nD) : S1x512.Idx → EReal := V c main_v22
abbrev shiftArr (c : Dev nD) : S1x512.Idx → EReal := V c main_v23

/-- The two zero offsets of a whole block, as the constant function. -/
private theorem hz : (![0, 0] : Fin 2 → Nat) = fun _ => 0 := funext fun a => by fin_cases a <;> rfl

/-- The body's arithmetic at the entry `(p, q)` of a block: the multipliers' and the offsets' single rows are repeated
    down the block's rows, so the value there is `x₀[p, q]·x₁[0, q] + x₂[0, q]`. -/
private theorem pay_apply (x0 : Vec Ideal S1024x512 .f32) (x1 x2 : Vec Ideal S1x512 .f32) (p : Fin 1024) (q : Fin 512) :
    k1_pay1 x0 x1 x2 (ix2 p q) = x0 (ix2 p q) * x1 (ix2 (0 : Fin 1) q) + x2 (ix2 (0 : Fin 1) q) := by
  unfold k1_pay1
  simp only [addf_apply, mulf_apply, shapeCast_self, broadcastTo_1b_ab_apply]

/-- The one function of the whole arrays that every block of the result restricts: the entry times its channel's
    multiplier plus its channel's offset. -/
private def G (c : Dev nD) : S32768x512.Idx → EReal :=
  fun i => xarr V c i * scaleArr V c (ix2 (0 : Fin 1) (i 1 : Fin 512)) + shiftArr V c (ix2 (0 : Fin 1) (i 1 : Fin 512))

/-- That function at row `r` and channel `h`. -/
private theorem G_apply (c : Dev nD) (r : Fin 32768) (h : Fin 512) :
    G V c (ix2 r h) = xarr V c (ix2 r h) * scaleArr V c (ix2 0 h) + shiftArr V c (ix2 0 h) := rfl

/-- Which blocks point `t` works on: block `t` along the rows (block 0 along the channels) of the matrix and of the
    result, and the only block (index 0 on both axes) of the multipliers' and of the offsets' row. -/
private theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The matrix block at point `t`, at `(p, q)`, is the matrix at row `1024·t + p` and channel `q`. -/
private theorem xblk_apply (c : Dev nD) (t : Fin cfg1.N) (p : Fin 1024) (q : Fin 512) (i : Fin 32768)
    (hi : i.val = t.val * 1024 + p.val) :
    (iblk1 V c 0 t : Vec Ideal S1024x512 .f32) (ix2 p q) = xarr V c (ix2 i q) := by
  obtain ⟨e0, e1, -⟩ := idx_facts t
  unfold iblk1
  rw [View.read_apply]
  show V c main_v0 _ = V c main_v0 _
  congr 1
  funext a
  apply Fin.ext
  match a with
  | ⟨0, _⟩ => show win1_0.index t (0 : Fin 2) * 1024 + 1 * p.val = i.val; rw [e0, hi]; omega
  | ⟨1, _⟩ => show win1_0.index t (1 : Fin 2) * 512 + 1 * q.val = q.val; rw [e1]; omega

/-- The multipliers' block at any point is the multipliers' whole row. -/
private theorem sblk_apply (c : Dev nD) (t : Fin cfg1.N) (q : Fin 512) :
    (iblk1 V c 1 t : Vec Ideal S1x512 .f32) (ix2 (0 : Fin 1) q) = scaleArr V c (ix2 (0 : Fin 1) q) := by
  obtain ⟨-, -, e0, e1, -⟩ := idx_facts t
  unfold iblk1
  rw [View.read_apply]
  show V c main_v22 _ = V c main_v22 _
  congr 1
  funext a
  apply Fin.ext
  match a with
  | ⟨0, _⟩ => show win1_1.index t (0 : Fin 2) * 1 + 1 * (0 : Fin 1).val = (0 : Fin 1).val; rw [e0]; omega
  | ⟨1, _⟩ => show win1_1.index t (1 : Fin 2) * 512 + 1 * q.val = q.val; rw [e1]; omega

/-- The offsets' block at any point is the offsets' whole row. -/
private theorem bblk_apply (c : Dev nD) (t : Fin cfg1.N) (q : Fin 512) :
    (iblk1 V c 2 t : Vec Ideal S1x512 .f32) (ix2 (0 : Fin 1) q) = shiftArr V c (ix2 (0 : Fin 1) q) := by
  obtain ⟨-, -, -, -, e0, e1, -⟩ := idx_facts t
  unfold iblk1
  rw [View.read_apply]
  show V c main_v23 _ = V c main_v23 _
  congr 1
  funext a
  apply Fin.ext
  match a with
  | ⟨0, _⟩ => show win1_2.index t (0 : Fin 2) * 1 + 1 * (0 : Fin 1).val = (0 : Fin 1).val; rw [e0]; omega
  | ⟨1, _⟩ => show win1_2.index t (1 : Fin 2) * 512 + 1 * q.val = q.val; rw [e1]; omega

/-- The entry `(p, q)` of the result's block at point `t` sits in the result at row `1024·t + p` and channel `q`. -/
private theorem oblk_emb (t : Fin cfg1.N) (p : Fin 1024) (q : Fin 512) (i : Fin 32768)
    (hi : i.val = t.val * 1024 + p.val) :
    ((cfg1.win 3).blk t).view.emb (ix2 p q) = ix2 i q := by
  obtain ⟨-, -, -, -, -, -, e0, e1⟩ := idx_facts t
  funext a
  apply Fin.ext
  match a with
  | ⟨0, _⟩ => show win1_3.index t (0 : Fin 2) * 1024 + 1 * p.val = i.val; rw [e0, hi]; omega
  | ⟨1, _⟩ => show win1_3.index t (1 : Fin 2) * 512 + 1 * q.val = q.val; rw [e1]; omega

/-- What point `t` writes to the result is block `t` of that one function: at `(p, q)` the body leaves
    `x[1024·t + p, q]·scale[0, q] + shift[0, q]`, which is the function at the place `(1024·t + p, q)` the entry goes to. -/
private theorem flushed_eq (c : Dev nD) (t : Fin cfg1.N) :
    (dat1 (F := Ideal) V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S1024x512) hz, View.ld_unit_zero (S := S1x512) hz]
  funext j
  obtain ⟨p, q, rfl⟩ : ∃ (p : Fin 1024) (q : Fin 512), j = ix2 p q := ⟨j 0, j 1, eq_ix2 (n0 := 1024) (n1 := 512) j⟩
  have ht : t.val < 32 := lt_of_lt_of_eq t.isLt N_1
  have hp : p.val < 1024 := p.isLt
  rw [View.read_apply]
  show k1_pay1 (iblk1 V c 0 t) (iblk1 V c 1 t) (iblk1 V c 2 t) (ix2 p q)
    = G V c (((cfg1.win 3).blk t).view.emb (ix2 p q))
  rw [oblk_emb t p q ⟨t.val * 1024 + p.val, by omega⟩ rfl, G_apply]
  refine (pay_apply (iblk1 V c 0 t) (iblk1 V c 1 t) (iblk1 V c 2 t) p q).trans ?_
  rw [xblk_apply V c t p q ⟨t.val * 1024 + p.val, by omega⟩ rfl, sblk_apply V c t q, bblk_apply V c t q]

/-- After the normalising pass its result array holds, at row `r` and channel `h`, the entry times the channel's
    multiplier plus the channel's offset, both as the pass is given them. -/
theorem final_out (c : Dev nD) (r : Fin 32768) (h : Fin 512) :
    ((dat1 (F := Ideal) V c).arrAt 3 cfg1.N : S32768x512.Idx → EReal) (ix2 r h)
      = xarr V c (ix2 r h) * scaleArr V c (ix2 0 h) + shiftArr V c (ix2 0 h) := by
  have hr : r.val < 32768 := r.isLt
  have hh : h.val < 512 := h.isLt
  have hN : cfg1.N = 32 := N_1
  -- row `r` lies in block `r / 1024`
  obtain ⟨t, ht⟩ : ∃ t : Fin cfg1.N, t.val = r.val / 1024 := ⟨⟨r.val / 1024, by rw [hN]; omega⟩, rfl⟩
  obtain ⟨-, -, -, -, -, -, e0, e1⟩ := idx_facts t
  refine ((dat1 (F := Ideal) V c).arrAt_apply_of_mem 3 (G V c) (fun t _ => flushed_eq V c t) cfg1.N t (ix2 r h)
    t.isLt (flush1_3 t) ?_).trans (G_apply V c r h)
  show ix2 r h ∈ ((View.whole main_v24).slice (win1_3.rect t)).set
  rw [View.set_slice_whole, Rect.mem_set_unit]
  intro a
  match a with
  | ⟨0, _⟩ =>
    show win1_3.index t (0 : Fin 2) * 1024 ≤ r.val ∧ r.val < win1_3.index t (0 : Fin 2) * 1024 + 1024
    rw [e0, ht]; omega
  | ⟨1, _⟩ =>
    show win1_3.index t (1 : Fin 2) * 512 ≤ h.val ∧ h.val < win1_3.index t (1 : Fin 2) * 512 + 512
    rw [e1]; omega

end Cert.ReferenceIdeal.ApplyValue

end
-- ==== Proof.ReferenceValue.lean ====
/-
  What the reference's program leaves in its result array, at the extended reals: the normalised array `norm3` of its
  three arguments. The program flattens the input to [32768, 512], runs the statistics pass (two groups of sixteen
  tiles of 1024 rows: partial sums per group and sublane), adds the [2, 8, 512] partial sums over their two leading
  axes on the host, forms mean, clamped variance, multiplier `γ·(var + ε)^(-1/2)` and offset `β − mean·multiplier` per
  channel, runs the normalising pass (entry times multiplier plus offset) and un-flattens. The sixteen partial sums of
  a channel add up to the channel's sum over all rows (`sum_blockSum`), so each entry is normalised with the
  statistics of its whole column.
-/
import proofs.«138052_g2000204283482131_pallaspilot1_46_6_alg».proof.Proof.ReferenceRun
import proofs.«138052_g2000204283482131_pallaspilot1_46_6_alg».proof.Proof.ReferenceStats
import proofs.«138052_g2000204283482131_pallaspilot1_46_6_alg».proof.Proof.ReferenceApply
import proofs.«138052_g2000204283482131_pallaspilot1_46_6_alg».proof.Proof.Layout
import Idealize.ShloMosaic.Lib.StableHlo.Run
import Idealize.ShloMosaic.Lib.IdealHost

set_option maxRecDepth 16384

noncomputable section

open Idealize.ShloMosaic Idealize.ShloMosaic.TcCoe Idealize.SL.Sem Idealize.ShloMosaic.ValueIdx
open Idealize.ShloMosaic.Pipeline (Dat)
open Idealize.ShloMosaic.StableHlo
open Cert.BatchNorm

namespace Cert.ReferenceIdeal.ResultValue

open Cert.ReferenceIdeal Cert.ReferenceIdeal.Gen

variable (m : (ℓ : Loc nD τ sig) → Buf (Elt Ideal) ℓ) (ρ : Dev nD → PrngReg)

/-- The three arguments as launched. -/
abbrev x3 (c : Dev nD) : T3.Idx → EReal := m ((c : Thread nD τ).loc main_arg0)
abbrev gam (c : Dev nD) : C1.Idx → EReal := m ((c : Thread nD τ).loc main_arg1)
abbrev bet (c : Dev nD) : C1.Idx → EReal := m ((c : Thread nD τ).loc main_arg2)

/-- The statistics pass finds the flattened input. -/
theorem V1_v0 (c : Dev nD) : (V1 m ρ c main_v0 : S32768x512.Idx → EReal) = flat (x3 m c) := by
  show StableHlo.after hostOps0 (W0 m ρ c) (Proc.devRef .tc main_v0) = _
  after_results
  exact shapeCast_flat _ _

/-- So does the normalising pass: neither the statistics pass nor the host operations between the passes write it. -/
theorem V3_v0 (c : Dev nD) : (V3 m ρ c main_v0 : S32768x512.Idx → EReal) = flat (x3 m c) := by
  show StableHlo.after hostOps1 (W2 m ρ c) (Proc.devRef .tc main_v0) = _
  after_results
  refine (W2_arr m ρ c (0 : Fin 3)).trans ?_
  refine ((dat0 (V1 m ρ) c).arrAt_in 0 rfl _).trans ?_
  exact (A_eq0 (V1 m ρ) c 0).trans (V1_v0 m ρ c)

/-- The two arrays of partial sums after the statistics pass. -/
abbrev psum (c : Dev nD) : S2x8x512.Idx → EReal := W2 m ρ c (Proc.devRef .tc main_v3_0)
abbrev psq (c : Dev nD) : S2x8x512.Idx → EReal := W2 m ρ c (Proc.devRef .tc main_v3_1)

theorem psum_apply (c : Dev nD) (j : Fin 2) (s : Fin 8) (h : Fin 512) :
    psum m ρ c (ix3 j s h) = blockSum 16 128 (colOf (flat (x3 m c)) h) j.val s.val := by
  have e : psum m ρ c = ((dat0 (F := Ideal) (V1 m ρ) c).arrAt 1 cfg0.N : S2x8x512.Idx → EReal) := W2_arr m ρ c (1 : Fin 3)
  rw [e, StatsValue.final_sum]
  unfold StatsValue.xarr
  rw [V1_v0]

theorem psq_apply (c : Dev nD) (j : Fin 2) (s : Fin 8) (h : Fin 512) :
    psq m ρ c (ix3 j s h) = blockSum 16 128 (colOf (sq (flat (x3 m c))) h) j.val s.val := by
  have e : psq m ρ c = ((dat0 (F := Ideal) (V1 m ρ) c).arrAt 2 cfg0.N : S2x8x512.Idx → EReal) := W2_arr m ρ c (2 : Fin 3)
  rw [e, StatsValue.final_sq]
  unfold StatsValue.xarr
  rw [V1_v0]

/-- The host's sum of the partial sums over groups and sublanes, from zero, is the channel's sum over all rows. -/
theorem sum1 (c : Dev nD) (h : Fin 512) :
    Host.reduceAdd (psum m ρ c) (constant (F := Ideal) S_ .f32 0x00000000#32) reducesTo_S2x8x512_S512_d0_1 h_S_ (ix1 h)
      = rowSum (flat (x3 m c)) h := by
  rw [hostReduceAdd_apply, hostReduceAdd_lead2]
  rw [Finset.sum_congr rfl fun j _ => Finset.sum_congr rfl fun s _ => psum_apply m ρ c j s h]
  rw [sum_blockSum 2 16 128 32768 rfl]
  show Ideal.ofBits .f32 0x00000000#32 + _ = _
  rw [Ideal.ofBits_zero_f32, zero_add]
  rfl

theorem sum2 (c : Dev nD) (h : Fin 512) :
    Host.reduceAdd (psq m ρ c) (constant (F := Ideal) S_ .f32 0x00000000#32) reducesTo_S2x8x512_S512_d0_1 h_S_ (ix1 h)
      = rowSum (sq (flat (x3 m c))) h := by
  rw [hostReduceAdd_apply, hostReduceAdd_lead2]
  rw [Finset.sum_congr rfl fun j _ => Finset.sum_congr rfl fun s _ => psq_apply m ρ c j s h]
  rw [sum_blockSum 2 16 128 32768 rfl]
  show Ideal.ofBits .f32 0x00000000#32 + _ = _
  rw [Ideal.ofBits_zero_f32, zero_add]
  rfl

/-- `γ` and `β` as rows, as the statistics pass leaves them (it does not touch them). -/
theorem W2_v1 (c : Dev nD) : (W2 m ρ c (Proc.devRef .tc main_v1) : S1x512.Idx → EReal) = shapeCast S1x512 (gam m c) shapeCasts_S512_S1x512 := by
  rw [W2_of_ne m ρ c main_v1 (by decide)]
  show StableHlo.after hostOps0 (W0 m ρ c) (Proc.devRef .tc main_v1) = _
  after_results
  rfl

theorem W2_v2 (c : Dev nD) : (W2 m ρ c (Proc.devRef .tc main_v2) : S1x512.Idx → EReal) = shapeCast S1x512 (bet m c) shapeCasts_S512_S1x512 := by
  rw [W2_of_ne m ρ c main_v2 (by decide)]
  show StableHlo.after hostOps0 (W0 m ρ c) (Proc.devRef .tc main_v2) = _
  after_results
  rfl

/-! ### The host operations between the passes, channel by channel -/

/-- The two channel sums as the host forms them. -/
abbrev s1v (c : Dev nD) : FVec Ideal S512 .f32 :=
  Host.reduceAdd (psum m ρ c) (constant (F := Ideal) S_ .f32 0x00000000#32) reducesTo_S2x8x512_S512_d0_1 h_S_
abbrev s2v (c : Dev nD) : FVec Ideal S512 .f32 :=
  Host.reduceAdd (psq m ρ c) (constant (F := Ideal) S_ .f32 0x00000000#32) reducesTo_S2x8x512_S512_d0_1 h_S_
/-- A scalar constant broadcast over the channels. -/
abbrev cst (b : BitVec 32) : FVec Ideal S512 .f32 := broadcastInDim S512 ![] bcast_S_S512 (constant (F := Ideal) S_ .f32 b)
/-- `γ` and `β` brought back from rows to vectors. -/
abbrev g1 (c : Dev nD) : FVec Ideal S512 .f32 := shapeCast S512 (W2 m ρ c (Proc.devRef .tc main_v1) : S1x512.Idx → EReal) shapeCasts_S1x512_S512
abbrev b1 (c : Dev nD) : FVec Ideal S512 .f32 := shapeCast S512 (W2 m ρ c (Proc.devRef .tc main_v2) : S1x512.Idx → EReal) shapeCasts_S1x512_S512
/-- The channels' means, multipliers and offsets as vectors. -/
def meanv (c : Dev nD) : FVec Ideal S512 .f32 := mulf (s1v m ρ c) (cst 0x38000000#32)
def scalev (c : Dev nD) : FVec Ideal S512 .f32 :=
  mulf (g1 m ρ c) (Host.rsqrt (addf (maximumf (subf (mulf (s2v m ρ c) (cst 0x38000000#32)) (mulf (meanv m ρ c) (meanv m ρ c)))
    (cst 0x00000000#32)) (cst 0x3727C5AC#32)))
def shiftv (c : Dev nD) : FVec Ideal S512 .f32 := subf (b1 m ρ c) (mulf (meanv m ρ c) (scalev m ρ c))

theorem g1_apply (c : Dev nD) (h : Fin 512) : g1 m ρ c (ix1 h) = gam m c (ix1 h) := by
  show shapeCast S512 (W2 m ρ c (Proc.devRef .tc main_v1) : S1x512.Idx → EReal) shapeCasts_S1x512_S512 (ix1 h) = _
  rw [shapeCast_1a_a_apply, W2_v1]
  exact shapeCast_a_1a_apply _ _ 0 h

theorem b1_apply (c : Dev nD) (h : Fin 512) : b1 m ρ c (ix1 h) = bet m c (ix1 h) := by
  show shapeCast S512 (W2 m ρ c (Proc.devRef .tc main_v2) : S1x512.Idx → EReal) shapeCasts_S1x512_S512 (ix1 h) = _
  rw [shapeCast_1a_a_apply, W2_v2]
  exact shapeCast_a_1a_apply _ _ 0 h

theorem meanv_apply (c : Dev nD) (h : Fin 512) : meanv m ρ c (ix1 h) = mean (rowSum (flat (x3 m c)) h) := by
  show s1v m ρ c (ix1 h) * invN = _
  rw [show s1v m ρ c (ix1 h) = _ from sum1 m ρ c h]
  rfl

theorem scalev_apply (c : Dev nD) (h : Fin 512) :
    scalev m ρ c (ix1 h) = scale (rowSum (flat (x3 m c)) h) (rowSum (sq (flat (x3 m c))) h) (gam m c (ix1 h)) := by
  show g1 m ρ c (ix1 h) * Ideal.rsqrt (max (s2v m ρ c (ix1 h) * invN - meanv m ρ c (ix1 h) * meanv m ρ c (ix1 h)) zeroF + eps) = _
  rw [g1_apply, meanv_apply, show s2v m ρ c (ix1 h) = _ from sum2 m ρ c h]
  rfl

theorem shiftv_apply (c : Dev nD) (h : Fin 512) :
    shiftv m ρ c (ix1 h)
      = shift (rowSum (flat (x3 m c)) h) (rowSum (sq (flat (x3 m c))) h) (gam m c (ix1 h)) (bet m c (ix1 h)) := by
  show b1 m ρ c (ix1 h) - meanv m ρ c (ix1 h) * scalev m ρ c (ix1 h) = _
  rw [b1_apply, meanv_apply, scalev_apply]
  rfl

/-- The channel's multiplier as the normalising pass is given it. -/
theorem V3_v22 (c : Dev nD) (h : Fin 512) :
    (V3 m ρ c main_v22 : S1x512.Idx → EReal) (ix2 0 h)
      = scale (rowSum (flat (x3 m c)) h) (rowSum (sq (flat (x3 m c))) h) (gam m c (ix1 h)) := by
  have e : (V3 m ρ c main_v22 : S1x512.Idx → EReal) = shapeCast S1x512 (scalev m ρ c) shapeCasts_S512_S1x512 := by
    show StableHlo.after hostOps1 (W2 m ρ c) (Proc.devRef .tc main_v22) = _
    after_results
    rfl
  rw [e, shapeCast_a_1a_apply]
  exact scalev_apply m ρ c h

set_option maxHeartbeats 2000000 in
/-- The channel's offset as the normalising pass is given it. -/
theorem V3_v23 (c : Dev nD) (h : Fin 512) :
    (V3 m ρ c main_v23 : S1x512.Idx → EReal) (ix2 0 h)
      = shift (rowSum (flat (x3 m c)) h) (rowSum (sq (flat (x3 m c))) h) (gam m c (ix1 h)) (bet m c (ix1 h)) := by
  have e : (V3 m ρ c main_v23 : S1x512.Idx → EReal) = shapeCast S1x512 (shiftv m ρ c) shapeCasts_S512_S1x512 := by
    show StableHlo.after hostOps1 (W2 m ρ c) (Proc.devRef .tc main_v23) = _
    after_results_simp
    rfl
  rw [e, shapeCast_a_1a_apply]
  exact shiftv_apply m ρ c h

/-- The result array after the program: the normalised array of the arguments. -/
theorem result_eq (c : Dev nD) :
    (W5 m ρ c (Proc.devRef .tc main_v25) : S64x512x512.Idx → EReal) = norm3 (x3 m c) (gam m c) (bet m c) := by
  have e : (W5 m ρ c (Proc.devRef .tc main_v25) : S64x512x512.Idx → EReal)
      = shapeCast S64x512x512 ((dat1 (F := Ideal) (V3 m ρ) c).arrAt 3 cfg1.N : S32768x512.Idx → EReal)
          shapeCasts_S32768x512_S64x512x512 := by
    show StableHlo.after hostOps2 (W4 m ρ c) (Proc.devRef .tc main_v25) = _
    after_results
    exact congrArg (fun z => shapeCast S64x512x512 z shapeCasts_S32768x512_S64x512x512) (W4_arr m ρ c (3 : Fin 4))
  funext i
  obtain ⟨b, n, h, rfl⟩ : ∃ (b : Fin 64) (n : Fin 512) (h : Fin 512), i = ix3 b n h := ⟨i 0, i 1, i 2, eq_ix3 i⟩
  rw [norm3_ix3, e, shapeCast_unflat, ApplyValue.final_out]
  unfold norm3At outAt ApplyValue.xarr ApplyValue.scaleArr ApplyValue.shiftArr
  rw [V3_v0, flat_ix2, flatAt_mk, V3_v22, V3_v23]

/-- The run, read: the result array at the normalised array, the arguments unchanged. -/
theorem run : θ_run defs (onTc (τ := τ) (main (F := Ideal))) ⟨m, fun _ => 0, ρ⟩ (fun r => ∀ c : Dev nD,
      r.2.mem ((c.tc : Thread nD τ).loc main_v25) = norm3 (x3 m c) (gam m c) (bet m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m ρ c), (h c).2⟩) (RunValue.run m ρ)

end Cert.ReferenceIdeal.ResultValue

end
-- ==== Proof.lean ====
/-
  Training-mode batch normalisation of a [64, 512, 512] array over its 32768 rows of 512 channels, in two passes: the
  kernel and the reference both produce, over the extended reals, the array whose entry `(b, n, h)` is
  `x·scale_h + shift_h` with `scale_h = γ_h·(var_h + ε)^(-1/2)`, `shift_h = β_h − mean_h·scale_h`,
  `mean_h = s₁·2⁻¹⁵`, `var_h = max (s₂·2⁻¹⁵ − mean_h²) 0`, `s₁` and `s₂` the sums of channel `h` and of its squares over
  all rows (`Cert.BatchNorm.norm3`). The two programs differ in how they group the rows when they take the two sums
  (two groups of two tiles of 8192 rows against two groups of sixteen tiles of 1024 rows, each tile summed sublane by
  sublane) and in where the sixteen partial sums of a channel are added and the per-channel quantities formed (inside
  the second pass against on the host between the passes); the operations on the sums are the same in the same order,
  and a sum of extended reals does not depend on the grouping. No finiteness of the inputs is used.
  The three frames are the generated frame certificates; the ideal pass rewrote nothing, so `preserves` is `True`.
-/
import proofs.«138052_g2000204283482131_pallaspilot1_46_6_alg».proof.Defs
import proofs.«138052_g2000204283482131_pallaspilot1_46_6_alg».proof.Proof.Gen.Kernel
import proofs.«138052_g2000204283482131_pallaspilot1_46_6_alg».proof.Proof.Gen.Kernel.Frame
import proofs.«138052_g2000204283482131_pallaspilot1_46_6_alg».proof.Proof.Gen.KernelIdeal
import proofs.«138052_g2000204283482131_pallaspilot1_46_6_alg».proof.Proof.Gen.KernelIdeal.Frame
import proofs.«138052_g2000204283482131_pallaspilot1_46_6_alg».proof.Proof.Gen.ReferenceIdeal
import proofs.«138052_g2000204283482131_pallaspilot1_46_6_alg».proof.Proof.Gen.ReferenceIdeal.Frame
import proofs.«138052_g2000204283482131_pallaspilot1_46_6_alg».proof.Proof.Gen.Pre_finite_inputs
import proofs.«138052_g2000204283482131_pallaspilot1_46_6_alg».proof.Proof.KernelValue
import proofs.«138052_g2000204283482131_pallaspilot1_46_6_alg».proof.Proof.ReferenceValue
import Idealize.ShloMosaic.Adequacy
import Idealize.ShloMosaic.Init

noncomputable section

namespace Cert.Proof

open Idealize.ShloMosaic Idealize.SL.Sem Cert.BatchNorm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

theorem preserves : Cert.preserves_Kernel_KernelIdeal := trivial

/-- Both programs end with the normalised array of their arguments; the arguments agree. -/
theorem algebraic : Cert.algebraic_KernelIdeal_ReferenceIdeal := by
  intro m ρ m' ρ' _ hagree
  refine ⟨fun c => norm3 (Cert.KernelIdeal.ResultValue.x3 m c) (Cert.KernelIdeal.ResultValue.gam m c)
    (Cert.KernelIdeal.ResultValue.bet m c), Cert.KernelIdeal.ResultValue.run m ρ, ?_⟩
  refine (θ_run Cert.ReferenceIdeal.defs _ _).mono (fun _ h c => ⟨(h c).1.trans ?_, (h c).2⟩)
    (Cert.ReferenceIdeal.ResultValue.run m' ρ')
  exact congr (congr (congrArg norm3 (hagree c).1) (hagree c).2.1) (hagree c).2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
